-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8 : Shape := ⟨2, ![16, 8]⟩
abbrev S16x32768x3 : Shape := ⟨3, ![16, 32768, 3]⟩
abbrev S256x8 : Shape := ⟨2, ![256, 8]⟩
abbrev S256 : Shape := ⟨1, ![256]⟩
abbrev S256x256 : Shape := ⟨2, ![256, 256]⟩
abbrev S50177x256 : Shape := ⟨2, ![50177, 256]⟩
abbrev S50177 : Shape := ⟨1, ![50177]⟩
abbrev S_ : Shape := ⟨0, ![]⟩

class Facts : Prop where
  bcast_S_S16x8 : S_.BroadcastsInDim S16x8 (![] : Fin 0 → Fin S16x8.rank)
  reducesTo_S16x8_S_d0_1 : S16x8.ReducesTo [0, 1] S_
  h_S_ : 0 < S_.numel
  bcast_S_S16x32768x3 : S_.BroadcastsInDim S16x32768x3 (![] : Fin 0 → Fin S16x32768x3.rank)
  reducesTo_S16x32768x3_S_d0_1_2 : S16x32768x3.ReducesTo [0, 1, 2] S_
  bcast_S_S256x8 : S_.BroadcastsInDim S256x8 (![] : Fin 0 → Fin S256x8.rank)
  reducesTo_S256x8_S_d0_1 : S256x8.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S50177x256 : S_.BroadcastsInDim S50177x256 (![] : Fin 0 → Fin S50177x256.rank)
  reducesTo_S50177x256_S_d0_1 : S50177x256.ReducesTo [0, 1] S_
  bcast_S_S50177 : S_.BroadcastsInDim S50177 (![] : Fin 0 → Fin S50177.rank)
  reducesTo_S50177_S_d0 : S50177.ReducesTo [0] S_

variable [Facts]

def fn_part2 {F : FTy → Type} [FloatOps F] (main_arg7 : FVec F S256 .f32) (main_arg8 : FVec F S50177x256 .f32) (main_arg9 : FVec F S50177 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S50177x256 .f32 := Host.absf main_arg8
  let main_cst_14 : FVec F S_ .f32 := constant S_ .f32 0x7F800000#32
  let main_v40 : FVec F S50177x256 .f32 := broadcastInDim S50177x256 ![] bcast_S_S50177x256 main_cst_14
  let main_v41 : IVec S50177x256 1 := cmpf .olt main_v39 main_v40
  let main_c_15 : IVec S_ 1 := constantI S_ 1 1#1
  let main_v42 : IVec S_ 1 := (fun x v => Host.reduce IntOp.andi x v reducesTo_S50177x256_S_d0_1 h_S_) main_v41 main_c_15
  let main_v43 : IVec S_ 1 := andi main_v38 main_v42
  let main_v44 : FVec F S50177 .f32 := Host.absf main_arg9
  let main_cst_16 : FVec F S_ .f32 := constant S_ .f32 0x7F800000#32
  let main_v45 : FVec F S50177 .f32 := broadcastInDim S50177 ![] bcast_S_S50177 main_cst_16
  let main_v46 : IVec S50177 1 := cmpf .olt main_v44 main_v45
  let main_c_17 : IVec S_ 1 := constantI S_ 1 1#1
  let main_v47 : IVec S_ 1 := (fun x v => Host.reduce IntOp.andi x v reducesTo_S50177_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S50177x256 .f32) (main_arg9 : FVec F S50177 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x8 .f32) (main_arg1 : FVec F S16x32768x3 .f32) (main_arg2 : FVec F S256x8 .f32) (main_arg3 : FVec F S256 .f32) (main_arg4 : FVec F S256x256 .f32) (main_arg5 : FVec F S256 .f32) (main_arg6 : FVec F S256x256 .f32) (main_arg7 : FVec F S256 .f32) (main_arg8 : FVec F S50177x256 .f32) (main_arg9 : FVec F S50177 .f32) : IVec S_ 1 :=
  let main_v0 : FVec F S16x8 .f32 := Host.absf main_arg0
  let main_cst : FVec F S_ .f32 := constant S_ .f32 0x7F800000#32
  let main_v1 : FVec F S16x8 .f32 := broadcastInDim S16x8 ![] bcast_S_S16x8 main_cst
  let main_v2 : IVec S16x8 1 := cmpf .olt main_v0 main_v1
  let main_c : IVec S_ 1 := constantI S_ 1 1#1
  let main_v3 : IVec S_ 1 := (fun x v => Host.reduce IntOp.andi x v reducesTo_S16x8_S_d0_1 h_S_) main_v2 main_c
  let main_v4 : FVec F S16x32768x3 .f32 := Host.absf main_arg1
  let main_cst_0 : FVec F S_ .f32 := constant S_ .f32 0x7F800000#32
  let main_v5 : FVec F S16x32768x3 .f32 := broadcastInDim S16x32768x3 ![] bcast_S_S16x32768x3 main_cst_0
  let main_v6 : IVec S16x32768x3 1 := cmpf .olt main_v4 main_v5
  let main_c_1 : IVec S_ 1 := constantI S_ 1 1#1
  let main_v7 : IVec S_ 1 := (fun x v => Host.reduce IntOp.andi x v reducesTo_S16x32768x3_S_d0_1_2 h_S_) main_v6 main_c_1
  let main_v8 : IVec S_ 1 := andi main_v3 main_v7
  let main_v9 : FVec F S256x8 .f32 := Host.absf main_arg2
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S16x8 : Shape := ⟨2, ![16, 8]⟩
abbrev S16x32768x3 : Shape := ⟨3, ![16, 32768, 3]⟩
abbrev S256x8 : Shape := ⟨2, ![256, 8]⟩
abbrev S256 : Shape := ⟨1, ![256]⟩
abbrev S256x256 : Shape := ⟨2, ![256, 256]⟩
abbrev S50177x256 : Shape := ⟨2, ![50177, 256]⟩
abbrev S50177 : Shape := ⟨1, ![50177]⟩
abbrev S8x256 : Shape := ⟨2, ![8, 256]⟩
abbrev S16x256 : Shape := ⟨2, ![16, 256]⟩
abbrev S1x256 : Shape := ⟨2, ![1, 256]⟩
abbrev S_ : Shape := ⟨0, ![]⟩
abbrev S256x50177 : Shape := ⟨2, ![256, 50177]⟩
abbrev S16x50177 : Shape := ⟨2, ![16, 50177]⟩
abbrev S1x50177 : Shape := ⟨2, ![1, 50177]⟩
abbrev S16x384 : Shape := ⟨2, ![16, 384]⟩
abbrev S16x128x3 : Shape := ⟨3, ![16, 128, 3]⟩
abbrev S16x128 : Shape := ⟨2, ![16, 128]⟩
abbrev S16x16384 : Shape := ⟨2, ![16, 16384]⟩
abbrev S16x128x128 : Shape := ⟨3, ![16, 128, 128]⟩
abbrev S16x1x128 : Shape := ⟨3, ![16, 1, 128]⟩
abbrev S16x1 : Shape := ⟨2, ![16, 1]⟩
abbrev S16x1x1 : Shape := ⟨3, ![16, 1, 1]⟩
abbrev S16x32768x1 : Shape := ⟨3, ![16, 32768, 1]⟩
abbrev S1x8192x3 : Shape := ⟨3, ![1, 8192, 3]⟩
abbrev S1x128x3 : Shape := ⟨3, ![1, 128, 3]⟩
abbrev S1x1x128 : Shape := ⟨3, ![1, 1, 128]⟩
abbrev S1x128x128 : Shape := ⟨3, ![1, 128, 128]⟩
abbrev S1x1x1 : Shape := ⟨3, ![1, 1, 1]⟩
abbrev S1x8192x1 : Shape := ⟨3, ![1, 8192, 1]⟩
abbrev S8192x3 : Shape := ⟨2, ![8192, 3]⟩
abbrev S128x3 : Shape := ⟨2, ![128, 3]⟩
abbrev S1x128 : Shape := ⟨2, ![1, 128]⟩
abbrev S3x128 : Shape := ⟨2, ![3, 128]⟩
abbrev S8192x128 : Shape := ⟨2, ![8192, 128]⟩
abbrev S128x128 : Shape := ⟨2, ![128, 128]⟩
abbrev S1x1 : Shape := ⟨2, ![1, 1]⟩
abbrev S128x1 : Shape := ⟨2, ![128, 1]⟩
abbrev S8192x1 : Shape := ⟨2, ![8192, 1]⟩
abbrev S524288x1 : Shape := ⟨2, ![524288, 1]⟩

abbrev nBuf : Space → Nat
  | .hbm => 64
  | .vmem => 24
  | .smem => 0
  | _ => 0

abbrev bufTy : (tb : Table) → Fin (tcTables nBuf tb) → BufTy
  | .hbm, ⟨0, _⟩ => ⟨S16x8, .f32⟩
  | .hbm, ⟨1, _⟩ => ⟨S16x32768x3, .f32⟩
  | .hbm, ⟨2, _⟩ => ⟨S256x8, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50177x256, .f32⟩
  | .hbm, ⟨9, _⟩ => ⟨S50177, .f32⟩
  | .hbm, ⟨10, _⟩ => ⟨S8x256, .f32⟩
  | .hbm, ⟨11, _⟩ => ⟨S16x256, .f32⟩
  | .hbm, ⟨12, _⟩ => ⟨S1x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S256x256, .f32⟩
  | .hbm, ⟨20, _⟩ => ⟨S16x256, .f32⟩
  | .hbm, ⟨21, _⟩ => ⟨S1x256, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S256x256, .f32⟩
  | .hbm, ⟨29, _⟩ => ⟨S16x256, .f32⟩
  | .hbm, ⟨30, _⟩ => ⟨S1x256, .f32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S256x50177, .f32⟩
  | .hbm, ⟨38, _⟩ => ⟨S16x50177, .f32⟩
  | .hbm, ⟨39, _⟩ => ⟨S1x50177, .f32⟩
  | .hbm, ⟨40, _⟩ => ⟨S16x50177, .f32⟩
  | .hbm, ⟨41, _⟩ => ⟨S16x50177, .f32⟩
  | .hbm, ⟨42, _⟩ => ⟨S16x384, .f32⟩
  | .hbm, ⟨43, _⟩ => ⟨S16x128x3, .f32⟩
  | .hbm, ⟨44, _⟩ => ⟨S16x128, .f32⟩
  | .hbm, ⟨45, _⟩ => ⟨S16x16384, .f32⟩
  | .hbm, ⟨46, _⟩ => ⟨S16x128x128, .f32⟩
  | .hbm, ⟨47, _⟩ => ⟨S16x128, .f32⟩
  | .hbm, ⟨48, _⟩ => ⟨S16x16384, .f32⟩
  | .hbm, ⟨49, _⟩ => ⟨S16x128x128, .f32⟩
  | .hbm, ⟨50, _⟩ => ⟨S16x128, .f32⟩
  | .hbm, ⟨51, _⟩ => ⟨S16x16384, .f32⟩
  | .hbm, ⟨52, _⟩ => ⟨S16x128x128, .f32⟩
  | .hbm, ⟨53, _⟩ => ⟨S16x128, .f32⟩
  | .hbm, ⟨54, _⟩ => ⟨S16x128, .f32⟩
  | .hbm, ⟨55, _⟩ => ⟨S16x1x128, .f32⟩
  | .hbm, ⟨56, _⟩ => ⟨S16x1, .f32⟩
  | .hbm, ⟨57, _⟩ => ⟨S16x1x128, .f32⟩
  | .hbm, ⟨58, _⟩ => ⟨S16x1x128, .f32⟩
  | .hbm, ⟨59, _⟩ => ⟨S16x1x128, .f32⟩
  | .hbm, ⟨60, _⟩ => ⟨S16x1x128, .f32⟩
  | .hbm, ⟨61, _⟩ => ⟨S16x1x1, .f32⟩
  | .hbm, ⟨62, _⟩ => ⟨S16x32768x1, .f32⟩
  | .hbm, ⟨63, _⟩ => ⟨S524288x1, .f32⟩
  | .local _ .vmem, ⟨0, _⟩ => ⟨S1x8192x3, .f32⟩
  | .local _ .vmem, ⟨1, _⟩ => ⟨S1x8192x3, .f32⟩
  | .local _ .vmem, ⟨2, _⟩ => ⟨S1x128x3, .f32⟩
  | .local _ .vmem, ⟨3, _⟩ => ⟨S1x128x3, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S1x128x128, .f32⟩
  | .local _ .vmem, ⟨15, _⟩ => ⟨S1x128x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x1, .f32⟩
  | .local _ .vmem, ⟨21, _⟩ => ⟨S1x1x1, .f32⟩
  | .local _ .vmem, ⟨22, _⟩ => ⟨S1x8192x1, .f32⟩
  | .local _ .vmem, ⟨23, _⟩ => ⟨S1x8192x1, .f32⟩
  | _, _ => ⟨S16x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8192x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S256x8_S8x256_1_0 : S256x8.Transposes [1, 0] S8x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S256x256_S256x256_1_0 : S256x256.Transposes [1, 0] S256x256
  transposes_S50177x256_S256x50177_1_0 : S50177x256.Transposes [1, 0] S256x50177
  bcast_S50177_S1x50177_1 : S50177.BroadcastsInDim S1x50177 (![1] : Fin 1 → Fin S1x50177.rank)
  bcast_S1x50177_S16x50177_0_1 : S1x50177.BroadcastsInDim S16x50177 (![0, 1] : Fin 2 → Fin S16x50177.rank)
  slices_S16x50177_S16x384_0_0 : S16x50177.Slices ![0, 0] S16x384
  shapeCasts_S16x384_S16x128x3 : S16x384.ShapeCasts S16x128x3
  slices_S16x50177_S16x128_0_384 : S16x50177.Slices ![0, 384] S16x128
  slices_S16x50177_S16x16384_0_512 : S16x50177.Slices ![0, 512] S16x16384
  shapeCasts_S16x16384_S16x128x128 : S16x16384.ShapeCasts S16x128x128
  slices_S16x50177_S16x128_0_16896 : S16x50177.Slices ![0, 16896] S16x128
  slices_S16x50177_S16x16384_0_17024 : S16x50177.Slices ![0, 17024] S16x16384
  slices_S16x50177_S16x128_0_33408 : S16x50177.Slices ![0, 33408] S16x128
  slices_S16x50177_S16x16384_0_33536 : S16x50177.Slices ![0, 33536] S16x16384
  slices_S16x50177_S16x128_0_49920 : S16x50177.Slices ![0, 49920] S16x128
  slices_S16x50177_S16x128_0_50048 : S16x50177.Slices ![0, 50048] S16x128
  shapeCasts_S16x128_S16x1x128 : S16x128.ShapeCasts S16x1x128
  slices_S16x50177_S16x1_0_50176 : S16x50177.Slices ![0, 50176] S16x1
  shapeCasts_S16x1_S16x1x1 : S16x1.ShapeCasts S16x1x1
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  transposes_S128x3_p1_0_S3x128 : S128x3.Transposes [1, 0] S3x128
  broadcasts_S1x128_S8192x128 : S1x128.Broadcasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  transposes_S128x128_p1_0_S128x128 : S128x128.Transposes [1, 0] S128x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  transposes_S1x128_p1_0_S128x1 : S1x128.Transposes [1, 0] S128x1
  broadcasts_S1x1_S8192x1 : S1x1.Broadcasts S8192x1
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  shapeCasts_S8192x1_S1x8192x1 : S8192x1.ShapeCasts S1x8192x1
  shapeCasts_S16x32768x1_S524288x1 : S16x32768x1.ShapeCasts S524288x1
  dot_S16x8_S8x256_S16x256_1_0_0_1_n_n_wf : DotDims.WF S16x8 S8x256 S16x256 [1] [0] [0] [1] [] []
  dot_S16x256_S256x256_S16x256_1_0_0_1_n_n_wf : DotDims.WF S16x256 S256x256 S16x256 [1] [0] [0] [1] [] []
  dot_S16x256_S256x50177_S16x50177_1_0_0_1_n_n_wf : DotDims.WF S16x256 S256x50177 S16x50177 [1] [0] [0] [1] [] []
  dot_S8192x3_S3x128_S8192x128_1_0_0_1_n_n_wf : DotDims.WF S8192x3 S3x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S16x32768x3.size a
  hwx0_0 : ∀ i : grid0.Coords, EltTy.bits .f32 = 32 ∨ (Rect.block (s := S16x32768x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3.size a ≤ S16x128x3.size a
  hwx0_1 : ∀ i : grid0.Coords, EltTy.bits .f32 = 32 ∨ (Rect.block (s := S16x128x3) S1x128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S16x128x128.size a
  hwx0_3 : ∀ i : grid0.Coords, EltTy.bits .f32 = 32 ∨ (Rect.block (s := S16x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x128.size a ≤ S16x128x128.size a
  hwx0_5 : ∀ i : grid0.Coords, EltTy.bits .f32 = 32 ∨ (Rect.block (s := S16x128x128) S1x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S16x1x128.size a
  hwx0_6 : ∀ i : grid0.Coords, EltTy.bits .f32 = 32 ∨ (Rect.block (s := S16x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x128.size a ≤ S16x128x128.size a
  hwx0_7 : ∀ i : grid0.Coords, EltTy.bits .f32 = 32 ∨ (Rect.block (s := S16x128x128) S1x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S16x1x128.size a
  hwx0_8 : ∀ i : grid0.Coords, EltTy.bits .f32 = 32 ∨ (Rect.block (s := S16x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S16x1x128.size a
  hwx0_9 : ∀ i : grid0.Coords, EltTy.bits .f32 = 32 ∨ (Rect.block (s := S16x1x128) S1x1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S16x1x1.size a
  hwx0_10 : ∀ i : grid0.Coords, EltTy.bits .f32 = 32 ∨ (Rect.block (s := S16x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8192x1.size a ≤ S16x32768x1.size a
  hwx0_11 : ∀ i : grid0.Coords, EltTy.bits .f32 = 32 ∨ (Rect.block (s := S16x32768x1) S1x8192x1.size (cc0_transform_11 i) (hinb0_11 i)).WholeWords (EltTy.packing .f32)

variable [Facts₀]

def dot_S16x8_S8x256_S16x256_1_0_0_1_n_n : DotDims S16x8 S8x256 S16x256 where
  lhsContracting := [1]
  rhsContracting := [0]
  lhsNonContracting := [0]
  rhsNonContracting := [1]
  lhsBatch := []
  rhsBatch := []
  wf := dot_S16x8_S8x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x50177_S16x50177_1_0_0_1_n_n : DotDims S16x256 S256x50177 S16x50177 where
  lhsContracting := [1]
  rhsContracting := [0]
  lhsNonContracting := [0]
  rhsNonContracting := [1]
  lhsBatch := []
  rhsBatch := []
  wf := dot_S16x256_S256x50177_S16x50177_1_0_0_1_n_n_wf
def dot_S8192x3_S3x128_S8192x128_1_0_0_1_n_n : DotDims S8192x3 S3x128 S8192x128 where
  lhsContracting := [1]
  rhsContracting := [0]
  lhsNonContracting := [0]
  rhsNonContracting := [1]
  lhsBatch := []
  rhsBatch := []
  wf := dot_S8192x3_S3x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_arg1) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x128x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v48) S1x1x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v49) S1x8192x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x8 : Shape := ⟨2, ![16, 8]⟩
abbrev S16x32768x3 : Shape := ⟨3, ![16, 32768, 3]⟩
abbrev S256x8 : Shape := ⟨2, ![256, 8]⟩
abbrev S256 : Shape := ⟨1, ![256]⟩
abbrev S256x256 : Shape := ⟨2, ![256, 256]⟩
abbrev S50177x256 : Shape := ⟨2, ![50177, 256]⟩
abbrev S50177 : Shape := ⟨1, ![50177]⟩
abbrev S8x256 : Shape := ⟨2, ![8, 256]⟩
abbrev S16x256 : Shape := ⟨2, ![16, 256]⟩
abbrev S1x256 : Shape := ⟨2, ![1, 256]⟩
abbrev S_ : Shape := ⟨0, ![]⟩
abbrev S256x50177 : Shape := ⟨2, ![256, 50177]⟩
abbrev S16x50177 : Shape := ⟨2, ![16, 50177]⟩
abbrev S1x50177 : Shape := ⟨2, ![1, 50177]⟩
abbrev S16x384 : Shape := ⟨2, ![16, 384]⟩
abbrev S16x128x3 : Shape := ⟨3, ![16, 128, 3]⟩
abbrev S16x128 : Shape := ⟨2, ![16, 128]⟩
abbrev S16x16384 : Shape := ⟨2, ![16, 16384]⟩
abbrev S16x128x128 : Shape := ⟨3, ![16, 128, 128]⟩
abbrev S16x1x128 : Shape := ⟨3, ![16, 1, 128]⟩
abbrev S16x1 : Shape := ⟨2, ![16, 1]⟩
abbrev S16x32768x128 : Shape := ⟨3, ![16, 32768, 128]⟩
abbrev S16x32768x1 : Shape := ⟨3, ![16, 32768, 1]⟩
abbrev S16x1x1 : Shape := ⟨3, ![16, 1, 1]⟩
abbrev S524288x1 : Shape := ⟨2, ![524288, 1]⟩

abbrev nBuf : Space → Nat
  | .hbm => 94
  | .vmem => 0
  | .smem => 0
  | _ => 0

abbrev bufTy : (tb : Table) → Fin (tcTables nBuf tb) → BufTy
  | .hbm, ⟨0, _⟩ => ⟨S16x8, .f32⟩
  | .hbm, ⟨1, _⟩ => ⟨S16x32768x3, .f32⟩
  | .hbm, ⟨2, _⟩ => ⟨S256x8, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50177x256, .f32⟩
  | .hbm, ⟨9, _⟩ => ⟨S50177, .f32⟩
  | .hbm, ⟨10, _⟩ => ⟨S8x256, .f32⟩
  | .hbm, ⟨11, _⟩ => ⟨S16x256, .f32⟩
  | .hbm, ⟨12, _⟩ => ⟨S1x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S256x256, .f32⟩
  | .hbm, ⟨20, _⟩ => ⟨S16x256, .f32⟩
  | .hbm, ⟨21, _⟩ => ⟨S1x256, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S256x256, .f32⟩
  | .hbm, ⟨29, _⟩ => ⟨S16x256, .f32⟩
  | .hbm, ⟨30, _⟩ => ⟨S1x256, .f32⟩
  | .hbm, ⟨31, _⟩ => ⟨S16x256, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S256x50177, .f32⟩
  | .hbm, ⟨38, _⟩ => ⟨S16x50177, .f32⟩
  | .hbm, ⟨39, _⟩ => ⟨S1x50177, .f32⟩
  | .hbm, ⟨40, _⟩ => ⟨S16x50177, .f32⟩
  | .hbm, ⟨41, _⟩ => ⟨S16x50177, .f32⟩
  | .hbm, ⟨42, _⟩ => ⟨S16x384, .f32⟩
  | .hbm, ⟨43, _⟩ => ⟨S16x128x3, .f32⟩
  | .hbm, ⟨44, _⟩ => ⟨S16x128, .f32⟩
  | .hbm, ⟨45, _⟩ => ⟨S16x16384, .f32⟩
  | .hbm, ⟨46, _⟩ => ⟨S16x128x128, .f32⟩
  | .hbm, ⟨47, _⟩ => ⟨S16x128, .f32⟩
  | .hbm, ⟨48, _⟩ => ⟨S16x16384, .f32⟩
  | .hbm, ⟨49, _⟩ => ⟨S16x128x128, .f32⟩
  | .hbm, ⟨50, _⟩ => ⟨S16x128, .f32⟩
  | .hbm, ⟨51, _⟩ => ⟨S16x16384, .f32⟩
  | .hbm, ⟨52, _⟩ => ⟨S16x128x128, .f32⟩
  | .hbm, ⟨53, _⟩ => ⟨S16x128, .f32⟩
  | .hbm, ⟨54, _⟩ => ⟨S16x128, .f32⟩
  | .hbm, ⟨55, _⟩ => ⟨S16x1x128, .f32⟩
  | .hbm, ⟨56, _⟩ => ⟨S16x1, .f32⟩
  | .hbm, ⟨57, _⟩ => ⟨S16x32768x128, .f32⟩
  | .hbm, ⟨58, _⟩ => ⟨S16x1x128, .f32⟩
  | .hbm, ⟨59, _⟩ => ⟨S16x32768x128, .f32⟩
  | .hbm, ⟨60, _⟩ => ⟨S16x32768x128, .f32⟩
  | .hbm, ⟨61, _⟩ => ⟨S_, .f32⟩
  | .hbm, ⟨62, _⟩ => ⟨S16x32768x128, .f32⟩
  | .hbm, ⟨63, _⟩ => ⟨S16x32768x128, .f32⟩
  | .hbm, ⟨64, _⟩ => ⟨S16x32768x128, .f32⟩
  | .hbm, ⟨65, _⟩ => ⟨S16x32768x128, .f32⟩
  | .hbm, ⟨66, _⟩ => ⟨S16x1x128, .f32⟩
  | .hbm, ⟨67, _⟩ => ⟨S16x32768x128, .f32⟩
  | .hbm, ⟨68, _⟩ => ⟨S16x32768x128, .f32⟩
  | .hbm, ⟨69, _⟩ => ⟨S_, .f32⟩
  | .hbm, ⟨70, _⟩ => ⟨S16x32768x128, .f32⟩
  | .hbm, ⟨71, _⟩ => ⟨S16x32768x128, .f32⟩
  | .hbm, ⟨72, _⟩ => ⟨S16x32768x128, .f32⟩
  | .hbm, ⟨73, _⟩ => ⟨S16x32768x128, .f32⟩
  | .hbm, ⟨74, _⟩ => ⟨S16x1x128, .f32⟩
  | .hbm, ⟨75, _⟩ => ⟨S16x32768x128, .f32⟩
  | .hbm, ⟨76, _⟩ => ⟨S16x32768x128, .f32⟩
  | .hbm, ⟨77, _⟩ => ⟨S_, .f32⟩
  | .hbm, ⟨78, _⟩ => ⟨S16x32768x128, .f32⟩
  | .hbm, ⟨79, _⟩ => ⟨S16x32768x128, .f32⟩
  | .hbm, ⟨80, _⟩ => ⟨S16x32768x128, .f32⟩
  | .hbm, ⟨81, _⟩ => ⟨S16x32768x128, .f32⟩
  | .hbm, ⟨82, _⟩ => ⟨S16x1x128, .f32⟩
  | .hbm, ⟨83, _⟩ => ⟨S16x32768x128, .f32⟩
  | .hbm, ⟨84, _⟩ => ⟨S16x32768x128, .f32⟩
  | .hbm, ⟨85, _⟩ => ⟨S_, .f32⟩
  | .hbm, ⟨86, _⟩ => ⟨S16x32768x128, .f32⟩
  | .hbm, ⟨87, _⟩ => ⟨S16x32768x128, .f32⟩
  | .hbm, ⟨88, _⟩ => ⟨S16x32768x128, .f32⟩
  | .hbm, ⟨89, _⟩ => ⟨S16x32768x1, .f32⟩
  | .hbm, ⟨90, _⟩ => ⟨S16x1x1, .f32⟩
  | .hbm, ⟨91, _⟩ => ⟨S16x32768x1, .f32⟩
  | .hbm, ⟨92, _⟩ => ⟨S16x32768x1, .f32⟩
  | .hbm, ⟨93, _⟩ => ⟨S524288x1, .f32⟩
  | _, _ => ⟨S16x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_4 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_5 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]

class Facts₀ : Prop where
  transposes_S256x8_S8x256_1_0 : S256x8.Transposes [1, 0] S8x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S256x256_S256x256_1_0 : S256x256.Transposes [1, 0] S256x256
  transposes_S50177x256_S256x50177_1_0 : S50177x256.Transposes [1, 0] S256x50177
  bcast_S50177_S1x50177_1 : S50177.BroadcastsInDim S1x50177 (![1] : Fin 1 → Fin S1x50177.rank)
  bcast_S1x50177_S16x50177_0_1 : S1x50177.BroadcastsInDim S16x50177 (![0, 1] : Fin 2 → Fin S16x50177.rank)
  slices_S16x50177_S16x384_0_0 : S16x50177.Slices ![0, 0] S16x384
  shapeCasts_S16x384_S16x128x3 : S16x384.ShapeCasts S16x128x3
  slices_S16x50177_S16x128_0_384 : S16x50177.Slices ![0, 384] S16x128
  slices_S16x50177_S16x16384_0_512 : S16x50177.Slices ![0, 512] S16x16384
  shapeCasts_S16x16384_S16x128x128 : S16x16384.ShapeCasts S16x128x128
  slices_S16x50177_S16x128_0_16896 : S16x50177.Slices ![0, 16896] S16x128
  slices_S16x50177_S16x16384_0_17024 : S16x50177.Slices ![0, 17024] S16x16384
  slices_S16x50177_S16x128_0_33408 : S16x50177.Slices ![0, 33408] S16x128
  slices_S16x50177_S16x16384_0_33536 : S16x50177.Slices ![0, 33536] S16x16384
  slices_S16x50177_S16x128_0_49920 : S16x50177.Slices ![0, 49920] S16x128
  slices_S16x50177_S16x128_0_50048 : S16x50177.Slices ![0, 50048] S16x128
  shapeCasts_S16x128_S16x1x128 : S16x128.ShapeCasts S16x1x128
  slices_S16x50177_S16x1_0_50176 : S16x50177.Slices ![0, 50176] S16x1
  bcast_S16x128_S16x1x128_0_2 : S16x128.BroadcastsInDim S16x1x128 (![0, 2] : Fin 2 → Fin S16x1x128.rank)
  bcast_S16x1x128_S16x32768x128_0_1_2 : S16x1x128.BroadcastsInDim S16x32768x128 (![0, 1, 2] : Fin 3 → Fin S16x32768x128.rank)
  bcast_S_S16x32768x128 : S_.BroadcastsInDim S16x32768x128 (![] : Fin 0 → Fin S16x32768x128.rank)
  bcast_S16x1_S16x1x1_0_2 : S16x1.BroadcastsInDim S16x1x1 (![0, 2] : Fin 2 → Fin S16x1x1.rank)
  bcast_S16x1x1_S16x32768x1_0_1_2 : S16x1x1.BroadcastsInDim S16x32768x1 (![0, 1, 2] : Fin 3 → Fin S16x32768x1.rank)
  shapeCasts_S16x32768x1_S524288x1 : S16x32768x1.ShapeCasts S524288x1
  dot_S16x8_S8x256_S16x256_1_0_0_1_n_n_wf : DotDims.WF S16x8 S8x256 S16x256 [1] [0] [0] [1] [] []
  dot_S16x256_S256x256_S16x256_1_0_0_1_n_n_wf : DotDims.WF S16x256 S256x256 S16x256 [1] [0] [0] [1] [] []
  dot_S16x256_S256x50177_S16x50177_1_0_0_1_n_n_wf : DotDims.WF S16x256 S256x50177 S16x50177 [1] [0] [0] [1] [] []
  dot_S16x32768x3_S16x128x3_S16x32768x128_2_2_1_1_0_0_wf : DotDims.WF S16x32768x3 S16x128x3 S16x32768x128 [2] [2] [1] [1] [0] [0]
  dot_S16x32768x128_S16x128x128_S16x32768x128_2_2_1_1_0_0_wf : DotDims.WF S16x32768x128 S16x128x128 S16x32768x128 [2] [2] [1] [1] [0] [0]
  dot_S16x32768x128_S16x1x128_S16x32768x1_2_2_1_1_0_0_wf : DotDims.WF S16x32768x128 S16x1x128 S16x32768x1 [2] [2] [1] [1] [0] [0]

variable [Facts₀]

def dot_S16x8_S8x256_S16x256_1_0_0_1_n_n : DotDims S16x8 S8x256 S16x256 where
  lhsContracting := [1]
  rhsContracting := [0]
  lhsNonContracting := [0]
  rhsNonContracting := [1]
  lhsBatch := []
  rhsBatch := []
  wf := dot_S16x8_S8x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x50177_S16x50177_1_0_0_1_n_n : DotDims S16x256 S256x50177 S16x50177 where
  lhsContracting := [1]
  rhsContracting := [0]
  lhsNonContracting := [0]
  rhsNonContracting := [1]
  lhsBatch := []
  rhsBatch := []
  wf := dot_S16x256_S256x50177_S16x50177_1_0_0_1_n_n_wf
def dot_S16x32768x3_S16x128x3_S16x32768x128_2_2_1_1_0_0 : DotDims S16x32768x3 S16x128x3 S16x32768x128 where
  lhsContracting := [2]
  rhsContracting := [2]
  lhsNonContracting := [1]
  rhsNonContracting := [1]
  lhsBatch := [0]
  rhsBatch := [0]
  wf := dot_S16x32768x3_S16x128x3_S16x32768x128_2_2_1_1_0_0_wf
def dot_S16x32768x128_S16x128x128_S16x32768x128_2_2_1_1_0_0 : DotDims S16x32768x128 S16x128x128 S16x32768x128 where
  lhsContracting := [2]
  rhsContracting := [2]
  lhsNonContracting := [1]
  rhsNonContracting := [1]
  lhsBatch := [0]
  rhsBatch := [0]
  wf := dot_S16x32768x128_S16x128x128_S16x32768x128_2_2_1_1_0_0_wf
def dot_S16x32768x128_S16x1x128_S16x32768x1_2_2_1_1_0_0 : DotDims S16x32768x128 S16x1x128 S16x32768x1 where
  lhsContracting := [2]
  rhsContracting := [2]
  lhsNonContracting := [1]
  rhsNonContracting := [1]
  lhsBatch := [0]
  rhsBatch := [0]
  wf := dot_S16x32768x128_S16x1x128_S16x32768x1_2_2_1_1_0_0_wf

class Facts : Prop extends Facts₀ where

variable [Facts]
-- ==== Proof.Spec.lean ====
/-
  The function both programs compute, written once over plain extended-real arrays.

  One sample's implicit network is a SIREN: three coordinates go through four layers
  `h ↦ sin (30 · (W h + b))` of width 128 and a final affine layer of width 1. Its weights are not
  inputs: they are slices of one row of a parameter array `P : [16, 50177]` (one row per sample), laid
  out as `W0 [128×3] ‖ b0 [128] ‖ W1 [128×128] ‖ b1 ‖ W2 ‖ b2 ‖ W3 ‖ b3 ‖ Wo [1×128] ‖ bo [1]`, each
  matrix row-major. `G xt P` is the whole output: at sample `b` and point `n` the network of sample
  `b`'s row of `P` applied to `xt[b, n, :]`.
-/
import Idealize.ShloMosaic.PureOps.Ideal
import Idealize.ShloMosaic.Lib.ValueIdx

noncomputable section

namespace Cert.Siren

open Idealize.ShloMosaic Idealize.ShloMosaic.ValueIdx

/-- An affine form: the inner product of `h` with one weight row, plus the bias. -/
def lin {K : ℕ} (h W : Fin K → EReal) (b : EReal) : EReal := (∑ k : Fin K, h k * W k) + b

/-- The activation `z ↦ sin (30 · z)`; the frequency is the float literal both programs carry. -/
def act (z : EReal) : EReal := Ideal.sin (Ideal.ofBits .f32 0x41F00000#32 * z)

/-- The network at one point: four sine layers, then the affine read-out. -/
def net (x : Fin 3 → EReal) (W0 : Fin 128 → Fin 3 → EReal) (b0 : Fin 128 → EReal)
    (W1 : Fin 128 → Fin 128 → EReal) (b1 : Fin 128 → EReal)
    (W2 : Fin 128 → Fin 128 → EReal) (b2 : Fin 128 → EReal)
    (W3 : Fin 128 → Fin 128 → EReal) (b3 : Fin 128 → EReal)
    (Wo : Fin 128 → EReal) (bo : EReal) : EReal :=
  lin (fun o4 => act (lin (fun o3 => act (lin (fun o2 => act (lin (fun o1 => act (lin x (W0 o1) (b0 o1)))
    (W1 o2) (b1 o2))) (W2 o3) (b2 o3))) (W3 o4) (b3 o4))) Wo bo

/-- Column of `P` holding entry `(o, i)` of the first layer's 128×3 matrix. -/
def colW0 (o : Fin 128) (i : Fin 3) : Fin 50177 := ⟨3 * o.val + i.val, by omega⟩
/-- Column of `P` holding entry `o` of a 128-vector that starts at column `off`. -/
def colB (off : ℕ) (h : off + 128 ≤ 50177) (o : Fin 128) : Fin 50177 := ⟨off + o.val, by omega⟩
/-- Column of `P` holding entry `(o, i)` of a 128×128 matrix that starts at column `off`. -/
def colW (off : ℕ) (h : off + 16384 ≤ 50177) (o i : Fin 128) : Fin 50177 := ⟨off + 128 * o.val + i.val, by omega⟩
/-- The last column: the read-out bias. -/
def colBo : Fin 50177 := ⟨50176, by omega⟩

/-- The output at sample `b`, point `n`. -/
def G (xt : (⟨3, ![16, 32768, 3]⟩ : Shape).Idx → EReal) (P : (⟨2, ![16, 50177]⟩ : Shape).Idx → EReal)
    (b : Fin 16) (n : Fin 32768) : EReal :=
  net (fun i => xt (ix3 b n i))
    (fun o i => P (ix2 b (colW0 o i))) (fun o => P (ix2 b (colB 384 (by omega) o)))
    (fun o i => P (ix2 b (colW 512 (by omega) o i))) (fun o => P (ix2 b (colB 16896 (by omega) o)))
    (fun o i => P (ix2 b (colW 17024 (by omega) o i))) (fun o => P (ix2 b (colB 33408 (by omega) o)))
    (fun o i => P (ix2 b (colW 33536 (by omega) o i))) (fun o => P (ix2 b (colB 49920 (by omega) o)))
    (fun i => P (ix2 b (colB 50048 (by omega) i))) (P (ix2 b colBo))

/-- The same as the kernel's output array `[16, 32768, 1]`. -/
def G3 (xt : (⟨3, ![16, 32768, 3]⟩ : Shape).Idx → EReal) (P : (⟨2, ![16, 50177]⟩ : Shape).Idx → EReal) :
    (⟨3, ![16, 32768, 1]⟩ : Shape).Idx → EReal := fun j => G xt P (j 0) (j 1)

/-- The result both programs return: that array flattened row-major to `[524288, 1]`, so row `q` is sample
    `q / 32768`, point `q % 32768`. -/
def out (xt : (⟨3, ![16, 32768, 3]⟩ : Shape).Idx → EReal) (P : (⟨2, ![16, 50177]⟩ : Shape).Idx → EReal) :
    (⟨2, ![524288, 1]⟩ : Shape).Idx → EReal := fun i =>
  G xt P ⟨(i 0).val / 32768, by have h : (i 0).val < 524288 := (i 0).isLt; omega⟩
    ⟨(i 0).val % 32768, Nat.mod_lt _ (by decide)⟩

end Cert.Siren

end
-- ==== Proof.RefG.lean ====
/-
  The reference program computes `Siren.out`: its result, read at a row, is the network of that row's
  sample applied to that row's point, with the network's weights read out of the parameter array the
  reference's own first stages build.

  The parameter array is never opened: it is the abstract `𝐏 : [16, 50177]`. The reference cuts each row
  of `𝐏` into ten column ranges and reshapes four of them to matrices; reading a slice-then-reshape at
  coordinates `(b, o, k)` is reading `𝐏` at row `b` and column `offset + width · o + k`, which is the
  only arithmetic here. Each hidden stage is then, at `(b, n, o)`, the activation of an affine form over
  the previous stage at `(b, n, ·)`, and the result row `q` is the read-out at sample `q / 32768`,
  point `q % 32768`.
-/
import proofs.«111952_j2740189135424_1_alg».proof.Proof.Gen.ReferenceIdeal.Read
import proofs.«111952_j2740189135424_1_alg».proof.Proof.Spec

noncomputable section

namespace Cert.Siren.Ref

open Cert.ReferenceIdeal Cert.ReferenceIdeal.Read Idealize.ShloMosaic Idealize.ShloMosaic.ValueIdx Cert.Siren

/-! ## Index equations

Every composed index map of the reference, evaluated at explicit coordinates. -/

/-- Rows `[0, 384)` of a sample's parameters, reshaped `[128, 3]`: entry `(o, k)` is column `3 o + k`. -/
theorem idx_W0 (b : Fin 16) (o : Fin 128) (k : Fin 3) :
    idx_main_v29 (idx_main_v30 (ix3 b o k)) = ix2 b (colW0 o k) :=
  funext fun a => Fin.ext (by
    have hb := b.isLt; have ho := o.isLt; have hk := k.isLt
    match a with
    | ⟨0, _⟩ => show ((b.val * 128 + o.val) * 3 + k.val) / 384 = b.val; omega
    | ⟨1, _⟩ => show ((b.val * 128 + o.val) * 3 + k.val) % 384 = 3 * o.val + k.val; omega)

/-- Columns `[512, 16896)` reshaped `[128, 128]`: entry `(o, k)` is column `512 + 128 o + k`. -/
theorem idx_W1 (b : Fin 16) (o k : Fin 128) :
    idx_main_v32 (idx_main_v33 (ix3 b o k)) = ix2 b (colW 512 (by omega) o k) :=
  funext fun a => Fin.ext (by
    have hb := b.isLt; have ho := o.isLt; have hk := k.isLt
    match a with
    | ⟨0, _⟩ => show ((b.val * 128 + o.val) * 128 + k.val) / 16384 = b.val; omega
    | ⟨1, _⟩ => show 512 + ((b.val * 128 + o.val) * 128 + k.val) % 16384 = 512 + 128 * o.val + k.val; omega)

/-- Columns `[17024, 33408)` reshaped `[128, 128]`. -/
theorem idx_W2 (b : Fin 16) (o k : Fin 128) :
    idx_main_v35 (idx_main_v36 (ix3 b o k)) = ix2 b (colW 17024 (by omega) o k) :=
  funext fun a => Fin.ext (by
    have hb := b.isLt; have ho := o.isLt; have hk := k.isLt
    match a with
    | ⟨0, _⟩ => show ((b.val * 128 + o.val) * 128 + k.val) / 16384 = b.val; omega
    | ⟨1, _⟩ => show 17024 + ((b.val * 128 + o.val) * 128 + k.val) % 16384 = 17024 + 128 * o.val + k.val; omega)

/-- Columns `[33536, 49920)` reshaped `[128, 128]`. -/
theorem idx_W3 (b : Fin 16) (o k : Fin 128) :
    idx_main_v38 (idx_main_v39 (ix3 b o k)) = ix2 b (colW 33536 (by omega) o k) :=
  funext fun a => Fin.ext (by
    have hb := b.isLt; have ho := o.isLt; have hk := k.isLt
    match a with
    | ⟨0, _⟩ => show ((b.val * 128 + o.val) * 128 + k.val) / 16384 = b.val; omega
    | ⟨1, _⟩ => show 33536 + ((b.val * 128 + o.val) * 128 + k.val) % 16384 = 33536 + 128 * o.val + k.val; omega)

/-- Columns `[50048, 50176)` with a unit axis put in the middle: entry `(0, k)` is column `50048 + k`. -/
theorem idx_Wo (b : Fin 16) (z : Fin 1) (k : Fin 128) :
    idx_main_v41 (idx_main_v42 (ix3 b z k)) = ix2 b (colB 50048 (by omega) k) :=
  funext fun a => Fin.ext (by
    have hb := b.isLt; have hz := z.isLt; have hk := k.isLt
    match a with
    | ⟨0, _⟩ => show ((b.val * 1 + z.val) * 128 + k.val) / 128 = b.val; omega
    | ⟨1, _⟩ => show 50048 + ((b.val * 1 + z.val) * 128 + k.val) % 128 = 50048 + k.val; omega)

/-- A bias of a hidden layer, broadcast over the points: at `(b, n, o)` it is entry `o` of the bias slice. -/
theorem idx_b0 (b : Fin 16) (n : Fin 32768) (o : Fin 128) :
    idx_main_v31 (idx_main_v45 (idx_main_v46 (ix3 b n o))) = ix2 b (colB 384 (by omega) o) :=
  funext fun a => Fin.ext (by match a with | ⟨0, _⟩ => rfl | ⟨1, _⟩ => rfl)

theorem idx_b1 (b : Fin 16) (n : Fin 32768) (o : Fin 128) :
    idx_main_v34 (idx_main_v52 (idx_main_v53 (ix3 b n o))) = ix2 b (colB 16896 (by omega) o) :=
  funext fun a => Fin.ext (by match a with | ⟨0, _⟩ => rfl | ⟨1, _⟩ => rfl)

theorem idx_b2 (b : Fin 16) (n : Fin 32768) (o : Fin 128) :
    idx_main_v37 (idx_main_v59 (idx_main_v60 (ix3 b n o))) = ix2 b (colB 33408 (by omega) o) :=
  funext fun a => Fin.ext (by match a with | ⟨0, _⟩ => rfl | ⟨1, _⟩ => rfl)

theorem idx_b3 (b : Fin 16) (n : Fin 32768) (o : Fin 128) :
    idx_main_v40 (idx_main_v66 (idx_main_v67 (ix3 b n o))) = ix2 b (colB 49920 (by omega) o) :=
  funext fun a => Fin.ext (by match a with | ⟨0, _⟩ => rfl | ⟨1, _⟩ => rfl)

/-- The read-out bias, broadcast over the points: the last column. -/
theorem idx_bo (b : Fin 16) (n : Fin 32768) (z : Fin 1) :
    idx_main_v43 (idx_main_v73 (idx_main_v74 (ix3 b n z))) = ix2 b colBo :=
  funext fun a => Fin.ext (by match a with | ⟨0, _⟩ => rfl | ⟨1, _⟩ => rfl)

/-- A contraction reads its left operand at the same sample and point, along the contracted axis. -/
theorem lidx_L1 (b : Fin 16) (n : Fin 32768) (o : Fin 128) (k : Fin 3) :
    lidx_main_v44 (ix3 b n o) k = ix3 b n k :=
  funext fun a => by match a with | ⟨0, _⟩ => rfl | ⟨1, _⟩ => rfl | ⟨2, _⟩ => rfl
/-- … and its right operand at the same sample, output unit `o`, along the contracted axis. -/
theorem ridx_L1 (b : Fin 16) (n : Fin 32768) (o : Fin 128) (k : Fin 3) :
    ridx_main_v44 (ix3 b n o) k = ix3 b o k :=
  funext fun a => by match a with | ⟨0, _⟩ => rfl | ⟨1, _⟩ => rfl | ⟨2, _⟩ => rfl

theorem lidx_L2 (b : Fin 16) (n : Fin 32768) (o k : Fin 128) : lidx_main_v51 (ix3 b n o) k = ix3 b n k :=
  funext fun a => by match a with | ⟨0, _⟩ => rfl | ⟨1, _⟩ => rfl | ⟨2, _⟩ => rfl
theorem ridx_L2 (b : Fin 16) (n : Fin 32768) (o k : Fin 128) : ridx_main_v51 (ix3 b n o) k = ix3 b o k :=
  funext fun a => by match a with | ⟨0, _⟩ => rfl | ⟨1, _⟩ => rfl | ⟨2, _⟩ => rfl
theorem lidx_L3 (b : Fin 16) (n : Fin 32768) (o k : Fin 128) : lidx_main_v58 (ix3 b n o) k = ix3 b n k :=
  funext fun a => by match a with | ⟨0, _⟩ => rfl | ⟨1, _⟩ => rfl | ⟨2, _⟩ => rfl
theorem ridx_L3 (b : Fin 16) (n : Fin 32768) (o k : Fin 128) : ridx_main_v58 (ix3 b n o) k = ix3 b o k :=
  funext fun a => by match a with | ⟨0, _⟩ => rfl | ⟨1, _⟩ => rfl | ⟨2, _⟩ => rfl
theorem lidx_L4 (b : Fin 16) (n : Fin 32768) (o k : Fin 128) : lidx_main_v65 (ix3 b n o) k = ix3 b n k :=
  funext fun a => by match a with | ⟨0, _⟩ => rfl | ⟨1, _⟩ => rfl | ⟨2, _⟩ => rfl
theorem ridx_L4 (b : Fin 16) (n : Fin 32768) (o k : Fin 128) : ridx_main_v65 (ix3 b n o) k = ix3 b o k :=
  funext fun a => by match a with | ⟨0, _⟩ => rfl | ⟨1, _⟩ => rfl | ⟨2, _⟩ => rfl
theorem lidx_Lo (b : Fin 16) (n : Fin 32768) (z : Fin 1) (k : Fin 128) : lidx_main_v72 (ix3 b n z) k = ix3 b n k :=
  funext fun a => by match a with | ⟨0, _⟩ => rfl | ⟨1, _⟩ => rfl | ⟨2, _⟩ => rfl
theorem ridx_Lo (b : Fin 16) (n : Fin 32768) (z : Fin 1) (k : Fin 128) : ridx_main_v72 (ix3 b n z) k = ix3 b z k :=
  funext fun a => by match a with | ⟨0, _⟩ => rfl | ⟨1, _⟩ => rfl | ⟨2, _⟩ => rfl

/-- Row `q` of the flattened result is sample `q / 32768`, point `q % 32768`. -/
theorem idx_out (i : (⟨2, ![524288, 1]⟩ : Shape).Idx) :
    idx_main_v76 i = ix3 (n0 := 16) (n1 := 32768) (n2 := 1)
      ⟨(i 0).val / 32768, by have h : (i 0).val < 524288 := (i 0).isLt; omega⟩
      ⟨(i 0).val % 32768, Nat.mod_lt _ (by decide)⟩ 0 :=
  funext fun a => Fin.ext (by
    have h0 : (i 0).val < 524288 := (i 0).isLt
    have h1 : (i 1).val < 1 := (i 1).isLt
    match a with
    | ⟨0, _⟩ => show ((i 0).val * 1 + (i 1).val) / 32768 = (i 0).val / 32768; omega
    | ⟨1, _⟩ => show ((i 0).val * 1 + (i 1).val) / 1 % 32768 = (i 0).val % 32768; omega
    | ⟨2, _⟩ => rfl)

/-! ## The stages -/

section
variable (x0 : (⟨S16x8, .f32⟩ : BufTy).Contents (Elt Ideal)) (x1 : (⟨S16x32768x3, .f32⟩ : BufTy).Contents (Elt Ideal))
  (x2 : (⟨S256x8, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S50177x256, .f32⟩ : BufTy).Contents (Elt Ideal)) (x9 : (⟨S50177, .f32⟩ : BufTy).Contents (Elt Ideal))

/-- The parameter array, one row per sample. -/
local notation "𝐏" => val_main_v28 (F := Ideal) x0 x2 x3 x4 x5 x6 x7 x8 x9

/-- The first hidden stage at sample `b`, point `n`, unit `o`. -/
theorem layer1 (b : Fin 16) (n : Fin 32768) (o : Fin 128) :
    val_main_v50 (F := Ideal) x0 x1 x2 x3 x4 x5 x6 x7 x8 x9 (ix3 b n o)
      = act (lin (fun k => x1 (ix3 b n k)) (fun k => 𝐏 (ix2 b (colW0 o k))) (𝐏 (ix2 b (colB 384 (by omega) o)))) := by
  rw [val_main_v50_apply, val_main_v49_apply, val_main_v48_apply, val_main_cst_2_apply, val_main_v47_apply,
    val_main_v44_apply, val_main_v46_apply, val_main_v45_apply, val_main_v31_apply, idx_b0]
  simp only [lidx_L1, ridx_L1, val_main_v30_apply, val_main_v29_apply, idx_W0]
  rfl

/-- The second hidden stage, over the first at the same sample and point. -/
theorem layer2 (b : Fin 16) (n : Fin 32768) (o : Fin 128) :
    val_main_v57 (F := Ideal) x0 x1 x2 x3 x4 x5 x6 x7 x8 x9 (ix3 b n o)
      = act (lin (fun k => val_main_v50 (F := Ideal) x0 x1 x2 x3 x4 x5 x6 x7 x8 x9 (ix3 b n k))
          (fun k => 𝐏 (ix2 b (colW 512 (by omega) o k))) (𝐏 (ix2 b (colB 16896 (by omega) o)))) := by
  rw [val_main_v57_apply, val_main_v56_apply, val_main_v55_apply, val_main_cst_3_apply, val_main_v54_apply,
    val_main_v51_apply, val_main_v53_apply, val_main_v52_apply, val_main_v34_apply, idx_b1]
  simp only [lidx_L2, ridx_L2, val_main_v33_apply, val_main_v32_apply, idx_W1]
  rfl

/-- The third hidden stage, over the second. -/
theorem layer3 (b : Fin 16) (n : Fin 32768) (o : Fin 128) :
    val_main_v64 (F := Ideal) x0 x1 x2 x3 x4 x5 x6 x7 x8 x9 (ix3 b n o)
      = act (lin (fun k => val_main_v57 (F := Ideal) x0 x1 x2 x3 x4 x5 x6 x7 x8 x9 (ix3 b n k))
          (fun k => 𝐏 (ix2 b (colW 17024 (by omega) o k))) (𝐏 (ix2 b (colB 33408 (by omega) o)))) := by
  rw [val_main_v64_apply, val_main_v63_apply, val_main_v62_apply, val_main_cst_4_apply, val_main_v61_apply,
    val_main_v58_apply, val_main_v60_apply, val_main_v59_apply, val_main_v37_apply, idx_b2]
  simp only [lidx_L3, ridx_L3, val_main_v36_apply, val_main_v35_apply, idx_W2]
  rfl

/-- The fourth hidden stage, over the third. -/
theorem layer4 (b : Fin 16) (n : Fin 32768) (o : Fin 128) :
    val_main_v71 (F := Ideal) x0 x1 x2 x3 x4 x5 x6 x7 x8 x9 (ix3 b n o)
      = act (lin (fun k => val_main_v64 (F := Ideal) x0 x1 x2 x3 x4 x5 x6 x7 x8 x9 (ix3 b n k))
          (fun k => 𝐏 (ix2 b (colW 33536 (by omega) o k))) (𝐏 (ix2 b (colB 49920 (by omega) o)))) := by
  rw [val_main_v71_apply, val_main_v70_apply, val_main_v69_apply, val_main_cst_5_apply, val_main_v68_apply,
    val_main_v65_apply, val_main_v67_apply, val_main_v66_apply, val_main_v40_apply, idx_b3]
  simp only [lidx_L4, ridx_L4, val_main_v39_apply, val_main_v38_apply, idx_W3]
  rfl

/-- The read-out: an affine form over the fourth hidden stage, no activation. -/
theorem readout (b : Fin 16) (n : Fin 32768) (z : Fin 1) :
    val_main_v75 (F := Ideal) x0 x1 x2 x3 x4 x5 x6 x7 x8 x9 (ix3 b n z)
      = lin (fun k => val_main_v71 (F := Ideal) x0 x1 x2 x3 x4 x5 x6 x7 x8 x9 (ix3 b n k))
          (fun k => 𝐏 (ix2 b (colB 50048 (by omega) k))) (𝐏 (ix2 b colBo)) := by
  rw [val_main_v75_apply, val_main_v72_apply, val_main_v74_apply, val_main_v73_apply, val_main_v43_apply, idx_bo]
  simp only [lidx_Lo, ridx_Lo, val_main_v42_apply, val_main_v41_apply, idx_Wo]
  rfl

end

/-- The reference's result is `Siren.out` of the points and the parameter array it builds. -/
theorem ref_out (x0 : (⟨S16x8, .f32⟩ : BufTy).Contents (Elt Ideal)) (x1 : (⟨S16x32768x3, .f32⟩ : BufTy).Contents (Elt Ideal))
    (x2 : (⟨S256x8, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S50177x256, .f32⟩ : BufTy).Contents (Elt Ideal)) (x9 : (⟨S50177, .f32⟩ : BufTy).Contents (Elt Ideal)) :
    val_main_v76 (F := Ideal) x0 x1 x2 x3 x4 x5 x6 x7 x8 x9
      = out x1 (val_main_v28 (F := Ideal) x0 x2 x3 x4 x5 x6 x7 x8 x9) := by
  funext i
  rw [val_main_v76_apply, idx_out, readout]
  unfold out G net
  simp only [layer4, layer3, layer2, layer1]

end Cert.Siren.Ref

end
-- ==== Proof.KPay.lean ====
/-
  The kernel body's one stored value, read at a row of the tile: it is the network applied to that row's
  point, with the weights read out of the ten weight blocks the body loads.

  Every layer of the body is the same few operations: the weight block `[1, n, k]` loses its unit axis and is
  transposed to `[k, n]`; the activation `[8192, k]` is multiplied into it over a zero accumulator; the bias
  block `[1, 1, n]` loses its unit axis and is repeated down the 8192 rows and added; the sum is scaled by the
  literal 30 and goes through the sine. Read at `(r, o)` the product is `∑ i, h (r, i) * W (0, o, i)`, the bias
  is `b (0, 0, o)`: the layer is `act (lin (row r of h) (row o of W) (b o))`. The three shapes that occur
  (`k = 3`, the hidden `128 × 128`, the read-out `n = 1`) each get that lemma once; the two payloads are
  then compositions of them.
-/
import proofs.«111952_j2740189135424_1_alg».proof.Proof.Gen.KernelIdeal.Skeleton
import proofs.«111952_j2740189135424_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Net

open Cert.KernelIdeal Cert.KernelIdeal.Gen Idealize.ShloMosaic Idealize.ShloMosaic.ValueIdx Cert.Siren

/-! ## What every layer shares -/

/-- The activation read at an index: `sin (30 · z)` entry by entry. -/
theorem act_apply {s : Shape} (z : FVec Ideal s .f32) (j : s.Idx) :
    sin (mulf (broadcast s (Scalar.ofBits (F := Ideal) .f32 0x41F00000#32)) z) j = act (z j) := rfl

/-- An affine form depends on its first argument entry by entry. -/
theorem lin_congr {K : ℕ} {h h' : Fin K → EReal} (e : ∀ k, h k = h' k) (W : Fin K → EReal) (b : EReal) :
    lin h W b = lin h' W b := congrArg (fun f => lin f W b) (funext e)

/-- The bias row broadcast down the rows at `(r, o)` is the bias block at `(0, 0, o)`. -/
theorem bias_apply (b : Vec Ideal S1x1x128 .f32) (r : Fin 8192) (o : Fin 128) :
    broadcastTo S8192x128 (shapeCast S1x128 b shapeCasts_S1x1x128_S1x128) broadcasts_S1x128_S8192x128 (ix2 r o)
      = b (ix3 0 0 o) := by
  refine (broadcastTo_apply _ broadcasts_S1x128_S8192x128 (ix2 r o) (ix2 0 o) (fun a => match a with
    | ⟨0, _⟩ => by show 0 = if (1 : Nat) = 1 then 0 else r.val; rw [if_pos rfl]
    | ⟨1, _⟩ => by show o.val = if (128 : Nat) = 1 then 0 else o.val; rw [if_neg (by decide)])).trans ?_
  refine shapeCast_apply b shapeCasts_S1x1x128_S1x128 (ix2 0 o) (ix3 0 0 o) ?_
  rw [Shape.rowMajor_val_three, Shape.rowMajor_val_two]
  show (0 * 1 + 0) * 128 + o.val = 0 * 128 + o.val
  omega

/-! ## The first layer: a [8192,3] block of points against a [128,3] weight block -/

/- The operand indices of this product at output index `i` and contraction index `q`, axis by axis: the left operand
   reads `(i 0, q)`, the right operand `(q, i 1)`. -/
theorem lhsA_0 (i : S8192x128.Idx) (q : dot_S8192x3_S3x128_S8192x128_1_0_0_1_n_n.contr.Idx) :
    (dot_S8192x3_S3x128_S8192x128_1_0_0_1_n_n.lhsIdx i q 0).val = (i 0).val := by
  unfold DotDims.lhsIdx
  rw [dif_neg (show ¬(0 : Fin S8192x3.rank) ∈ dot_S8192x3_S3x128_S8192x128_1_0_0_1_n_n.lhsBatch by decide), dif_pos (show (0 : Fin S8192x3.rank) ∈ dot_S8192x3_S3x128_S8192x128_1_0_0_1_n_n.lhsNonContracting by decide)]
  rfl
theorem lhsA_1 (i : S8192x128.Idx) (q : dot_S8192x3_S3x128_S8192x128_1_0_0_1_n_n.contr.Idx) :
    (dot_S8192x3_S3x128_S8192x128_1_0_0_1_n_n.lhsIdx i q 1).val = (q ⟨0, by decide⟩).val :=
  dot_S8192x3_S3x128_S8192x128_1_0_0_1_n_n.lhsIdx_val_of_single rfl i q
theorem rhsA_0 (i : S8192x128.Idx) (q : dot_S8192x3_S3x128_S8192x128_1_0_0_1_n_n.contr.Idx) :
    (dot_S8192x3_S3x128_S8192x128_1_0_0_1_n_n.rhsIdx i q 0).val = (q ⟨0, by decide⟩).val :=
  dot_S8192x3_S3x128_S8192x128_1_0_0_1_n_n.rhsIdx_val_of_single rfl i q
theorem rhsA_1 (i : S8192x128.Idx) (q : dot_S8192x3_S3x128_S8192x128_1_0_0_1_n_n.contr.Idx) :
    (dot_S8192x3_S3x128_S8192x128_1_0_0_1_n_n.rhsIdx i q 1).val = (i 1).val := by
  unfold DotDims.rhsIdx
  rw [dif_neg (show ¬(1 : Fin S3x128.rank) ∈ dot_S8192x3_S3x128_S8192x128_1_0_0_1_n_n.rhsBatch by decide), dif_pos (show (1 : Fin S3x128.rank) ∈ dot_S8192x3_S3x128_S8192x128_1_0_0_1_n_n.rhsNonContracting by decide)]
  rfl

/-- A [8192,3] × [3,128] product into the zero accumulator, read at an entry: the sum over the three coordinates. -/
theorem matmulA_apply (h : FVec Ideal S8192x3 .f32) (w : FVec Ideal S3x128 .f32) (r : Fin 8192) (o : Fin 128) :
    matmul dot_S8192x3_S3x128_S8192x128_1_0_0_1_n_n none h w (constant (F := Ideal) S8192x128 .f32 0x00000000#32) (ix2 r o)
      = ∑ k : Fin 3, h (ix2 r k) * w (ix2 k o) := by
  refine (Ideal.matmul_constant_zero_apply dot_S8192x3_S3x128_S8192x128_1_0_0_1_n_n none h w (ix2 r o)).trans ?_
  rw [← Equiv.sum_comp (ValueIdx.contrEquiv1 dot_S8192x3_S3x128_S8192x128_1_0_0_1_n_n 3 rfl rfl).symm]
  refine Finset.sum_congr rfl fun k _ => ?_
  have hk := ValueIdx.contrEquiv1_symm_val dot_S8192x3_S3x128_S8192x128_1_0_0_1_n_n 3 rfl rfl k
  have el : dot_S8192x3_S3x128_S8192x128_1_0_0_1_n_n.lhsIdx (ix2 r o) ((ValueIdx.contrEquiv1 dot_S8192x3_S3x128_S8192x128_1_0_0_1_n_n 3 rfl rfl).symm k) = ix2 r k := funext fun a => Fin.ext (by
    match a with
    | ⟨0, _⟩ => exact lhsA_0 _ _
    | ⟨1, _⟩ => exact (lhsA_1 _ _).trans hk)
  have er : dot_S8192x3_S3x128_S8192x128_1_0_0_1_n_n.rhsIdx (ix2 r o) ((ValueIdx.contrEquiv1 dot_S8192x3_S3x128_S8192x128_1_0_0_1_n_n 3 rfl rfl).symm k) = ix2 k o := funext fun a => Fin.ext (by
    match a with
    | ⟨0, _⟩ => exact (rhsA_0 _ _).trans hk
    | ⟨1, _⟩ => exact rhsA_1 _ _)
  rw [el, er]

/-- The point block with its leading unit axis dropped, at `(r, i)`, is the block at `(0, r, i)`. -/
theorem xA_apply (x : Vec Ideal S1x8192x3 .f32) (r : Fin 8192) (i : Fin 3) :
    shapeCast S8192x3 x shapeCasts_S1x8192x3_S8192x3 (ix2 r i) = x (ix3 0 r i) := by
  refine shapeCast_apply x shapeCasts_S1x8192x3_S8192x3 (ix2 r i) (ix3 0 r i) ?_
  rw [Shape.rowMajor_val_three, Shape.rowMajor_val_two]
  show (0 * 8192 + r.val) * 3 + i.val = r.val * 3 + i.val
  omega

/-- The transposed first weight matrix at `(k, o)` is the weight block at `(0, o, k)`. -/
theorem wA_apply (W : Vec Ideal S1x128x3 .f32) (k : Fin 3) (o : Fin 128) :
    transpose S3x128 [1, 0] (shapeCast S128x3 W shapeCasts_S1x128x3_S128x3) transposes_S128x3_p1_0_S3x128 (ix2 k o)
      = W (ix3 0 o k) := by
  refine (transpose_apply [1, 0] _ transposes_S128x3_p1_0_S3x128 (ix2 k o) (ix2 o k) (fun b => match b with
    | ⟨0, _⟩ => rfl
    | ⟨1, _⟩ => rfl)).trans ?_
  refine shapeCast_apply W shapeCasts_S1x128x3_S128x3 (ix2 o k) (ix3 0 o k) ?_
  rw [Shape.rowMajor_val_three, Shape.rowMajor_val_two]
  show (0 * 128 + o.val) * 3 + k.val = o.val * 3 + k.val
  omega

/-- The first layer's pre-activation at `(r, o)`: the affine form of point `r` with weight row `o`. -/
theorem affineA_apply (x : Vec Ideal S1x8192x3 .f32) (W : Vec Ideal S1x128x3 .f32) (b : Vec Ideal S1x1x128 .f32)
    (r : Fin 8192) (o : Fin 128) :
    addf (matmul dot_S8192x3_S3x128_S8192x128_1_0_0_1_n_n none
        (shapeCast S8192x3 x shapeCasts_S1x8192x3_S8192x3 : FVec Ideal S8192x3 .f32)
        (transpose S3x128 [1, 0] (shapeCast S128x3 W shapeCasts_S1x128x3_S128x3) transposes_S128x3_p1_0_S3x128 :
          FVec Ideal S3x128 .f32)
        (constant (F := Ideal) S8192x128 .f32 0x00000000#32))
      (broadcastTo S8192x128 (shapeCast S1x128 b shapeCasts_S1x1x128_S1x128) broadcasts_S1x128_S8192x128) (ix2 r o)
      = lin (fun i => x (ix3 0 r i)) (fun i => W (ix3 0 o i)) (b (ix3 0 0 o)) := by
  refine (addf_apply _ _ _).trans ?_
  rw [matmulA_apply, bias_apply]
  unfold lin
  exact congrArg (· + b (ix3 0 0 o)) (Finset.sum_congr rfl fun k _ => by rw [xA_apply x r k, wA_apply W k o])

/-! ## A hidden layer: a [8192,128] activation against a [128,128] weight block -/

/- The operand indices of this product at output index `i` and contraction index `q`, axis by axis: the left operand
   reads `(i 0, q)`, the right operand `(q, i 1)`. -/
theorem lhsB_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsB_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhsB_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhsB_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A [8192,128] × [128,128] product into the zero accumulator, read at an entry. -/
theorem matmulB_apply (h : FVec Ideal S8192x128 .f32) (w : FVec Ideal S128x128 .f32) (r : Fin 8192) (o : Fin 128) :
    matmul dot_S8192x128_S128x128_S8192x128_1_0_0_1_n_n none h w (constant (F := Ideal) S8192x128 .f32 0x00000000#32) (ix2 r o)
      = ∑ k : Fin 128, h (ix2 r k) * w (ix2 k o) := by
  refine (Ideal.matmul_constant_zero_apply dot_S8192x128_S128x128_S8192x128_1_0_0_1_n_n none h w (ix2 r o)).trans ?_
  rw [← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 r o) ((ValueIdx.contrEquiv1 dot_S8192x128_S128x128_S8192x128_1_0_0_1_n_n 128 rfl rfl).symm k) = ix2 r k := funext fun a => Fin.ext (by
    match a with
    | ⟨0, _⟩ => exact lhsB_0 _ _
    | ⟨1, _⟩ => exact (lhsB_1 _ _).trans hk)
  have er : dot_S8192x128_S128x128_S8192x128_1_0_0_1_n_n.rhsIdx (ix2 r o) ((ValueIdx.contrEquiv1 dot_S8192x128_S128x128_S8192x128_1_0_0_1_n_n 128 rfl rfl).symm k) = ix2 k o := funext fun a => Fin.ext (by
    match a with
    | ⟨0, _⟩ => exact (rhsB_0 _ _).trans hk
    | ⟨1, _⟩ => exact rhsB_1 _ _)
  rw [el, er]

/-- The transposed weight matrix at `(k, o)` is the weight block at `(0, o, k)`. -/
theorem wB_apply (W : Vec Ideal S1x128x128 .f32) (k o : Fin 128) :
    transpose S128x128 [1, 0] (shapeCast S128x128 W shapeCasts_S1x128x128_S128x128) transposes_S128x128_p1_0_S128x128 (ix2 k o)
      = W (ix3 0 o k) := by
  refine (transpose_apply [1, 0] _ transposes_S128x128_p1_0_S128x128 (ix2 k o) (ix2 o k) (fun b => match b with
    | ⟨0, _⟩ => rfl
    | ⟨1, _⟩ => rfl)).trans ?_
  refine shapeCast_apply W shapeCasts_S1x128x128_S128x128 (ix2 o k) (ix3 0 o k) ?_
  rw [Shape.rowMajor_val_three, Shape.rowMajor_val_two]
  show (0 * 128 + o.val) * 128 + k.val = o.val * 128 + k.val
  omega

/-- A hidden layer's pre-activation at `(r, o)`: the affine form of row `r` with weight row `o`. -/
theorem affineB_apply (h : FVec Ideal S8192x128 .f32) (W : Vec Ideal S1x128x128 .f32) (b : Vec Ideal S1x1x128 .f32)
    (r : Fin 8192) (o : Fin 128) :
    addf (matmul dot_S8192x128_S128x128_S8192x128_1_0_0_1_n_n none h
        (transpose S128x128 [1, 0] (shapeCast S128x128 W shapeCasts_S1x128x128_S128x128) transposes_S128x128_p1_0_S128x128 :
          FVec Ideal S128x128 .f32)
        (constant (F := Ideal) S8192x128 .f32 0x00000000#32))
      (broadcastTo S8192x128 (shapeCast S1x128 b shapeCasts_S1x1x128_S1x128) broadcasts_S1x128_S8192x128) (ix2 r o)
      = lin (fun i => h (ix2 r i)) (fun i => W (ix3 0 o i)) (b (ix3 0 0 o)) := by
  refine (addf_apply _ _ _).trans ?_
  rw [matmulB_apply, bias_apply]
  unfold lin
  exact congrArg (· + b (ix3 0 0 o)) (Finset.sum_congr rfl fun k _ => congrArg (h (ix2 r k) * ·) (wB_apply W k o))

/-! ## The read-out: a [8192,128] activation against one weight row -/

/- The operand indices of this product at output index `i` and contraction index `q`, axis by axis: the left operand
   reads `(i 0, q)`, the right operand `(q, i 1)`. -/
theorem lhsC_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide), dif_pos (show (0 : Fin S8192x128.rank) ∈ dot_S8192x128_S128x1_S8192x1_1_0_0_1_n_n.lhsNonContracting by decide)]
  rfl
theorem lhsC_1 (i : S8192x1.Idx) (q : dot_S8192x128_S128x1_S8192x1_1_0_0_1_n_n.contr.Idx) :
    (dot_S8192x128_S128x1_S8192x1_1_0_0_1_n_n.lhsIdx i q 1).val = (q ⟨0, by decide⟩).val :=
  dot_S8192x128_S128x1_S8192x1_1_0_0_1_n_n.lhsIdx_val_of_single rfl i q
theorem rhsC_0 (i : S8192x1.Idx) (q : dot_S8192x128_S128x1_S8192x1_1_0_0_1_n_n.contr.Idx) :
    (dot_S8192x128_S128x1_S8192x1_1_0_0_1_n_n.rhsIdx i q 0).val = (q ⟨0, by decide⟩).val :=
  dot_S8192x128_S128x1_S8192x1_1_0_0_1_n_n.rhsIdx_val_of_single rfl i q
theorem rhsC_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide), dif_pos (show (1 : Fin S128x1.rank) ∈ dot_S8192x128_S128x1_S8192x1_1_0_0_1_n_n.rhsNonContracting by decide)]
  rfl

/-- A [8192,128] × [128,1] product into the zero accumulator, read at an entry. -/
theorem matmulC_apply (h : FVec Ideal S8192x128 .f32) (w : FVec Ideal S128x1 .f32) (r : Fin 8192) (o : Fin 1) :
    matmul dot_S8192x128_S128x1_S8192x1_1_0_0_1_n_n none h w (constant (F := Ideal) S8192x1 .f32 0x00000000#32) (ix2 r o)
      = ∑ k : Fin 128, h (ix2 r k) * w (ix2 k o) := by
  refine (Ideal.matmul_constant_zero_apply dot_S8192x128_S128x1_S8192x1_1_0_0_1_n_n none h w (ix2 r o)).trans ?_
  rw [← Equiv.sum_comp (ValueIdx.contrEquiv1 dot_S8192x128_S128x1_S8192x1_1_0_0_1_n_n 128 rfl rfl).symm]
  refine Finset.sum_congr rfl fun k _ => ?_
  have hk := ValueIdx.contrEquiv1_symm_val dot_S8192x128_S128x1_S8192x1_1_0_0_1_n_n 128 rfl rfl k
  have el : dot_S8192x128_S128x1_S8192x1_1_0_0_1_n_n.lhsIdx (ix2 r o) ((ValueIdx.contrEquiv1 dot_S8192x128_S128x1_S8192x1_1_0_0_1_n_n 128 rfl rfl).symm k) = ix2 r k := funext fun a => Fin.ext (by
    match a with
    | ⟨0, _⟩ => exact lhsC_0 _ _
    | ⟨1, _⟩ => exact (lhsC_1 _ _).trans hk)
  have er : dot_S8192x128_S128x1_S8192x1_1_0_0_1_n_n.rhsIdx (ix2 r o) ((ValueIdx.contrEquiv1 dot_S8192x128_S128x1_S8192x1_1_0_0_1_n_n 128 rfl rfl).symm k) = ix2 k o := funext fun a => Fin.ext (by
    match a with
    | ⟨0, _⟩ => exact (rhsC_0 _ _).trans hk
    | ⟨1, _⟩ => exact rhsC_1 _ _)
  rw [el, er]

/-- The read-out weight row stood up as a column, at `(k, 0)`, is the weight block at `(0, 0, k)`. -/
theorem wC_apply (W : Vec Ideal S1x1x128 .f32) (k : Fin 128) (o : Fin 1) :
    transpose S128x1 [1, 0] (shapeCast S1x128 W shapeCasts_S1x1x128_S1x128) transposes_S1x128_p1_0_S128x1 (ix2 k o)
      = W (ix3 0 0 k) := by
  refine (transpose_apply [1, 0] _ transposes_S1x128_p1_0_S128x1 (ix2 k o) (ix2 0 k) (fun b => match b with
    | ⟨0, _⟩ => rfl
    | ⟨1, _⟩ => (Fin.val_eq_zero o).symm)).trans ?_
  refine shapeCast_apply W shapeCasts_S1x1x128_S1x128 (ix2 0 k) (ix3 0 0 k) ?_
  rw [Shape.rowMajor_val_three, Shape.rowMajor_val_two]
  show (0 * 1 + 0) * 128 + k.val = 0 * 128 + k.val
  omega

/-- The read-out bias broadcast down the rows is the bias block's one entry. -/
theorem bC_apply (b : Vec Ideal S1x1x1 .f32) (r : Fin 8192) (o : Fin 1) :
    broadcastTo S8192x1 (shapeCast S1x1 b shapeCasts_S1x1x1_S1x1) broadcasts_S1x1_S8192x1 (ix2 r o)
      = b (ix3 0 0 0) := by
  refine (broadcastTo_apply _ broadcasts_S1x1_S8192x1 (ix2 r o) (ix2 0 0) (fun a => match a with
    | ⟨0, _⟩ => by show 0 = if (1 : Nat) = 1 then 0 else r.val; rw [if_pos rfl]
    | ⟨1, _⟩ => by show 0 = if (1 : Nat) = 1 then 0 else o.val; rw [if_pos rfl])).trans ?_
  refine shapeCast_apply b shapeCasts_S1x1x1_S1x1 (ix2 0 0) (ix3 0 0 0) ?_
  rw [Shape.rowMajor_val_three, Shape.rowMajor_val_two]
  rfl

/-- The stored tile at row `r`: the affine read-out of row `r` of the last activation. -/
theorem affineC_apply (h : FVec Ideal S8192x128 .f32) (W : Vec Ideal S1x1x128 .f32) (b : Vec Ideal S1x1x1 .f32)
    (r : Fin 8192) :
    shapeCast S1x8192x1 (addf (matmul dot_S8192x128_S128x1_S8192x1_1_0_0_1_n_n none h
        (transpose S128x1 [1, 0] (shapeCast S1x128 W shapeCasts_S1x1x128_S1x128) transposes_S1x128_p1_0_S128x1 :
          FVec Ideal S128x1 .f32)
        (constant (F := Ideal) S8192x1 .f32 0x00000000#32))
      (broadcastTo S8192x1 (shapeCast S1x1 b shapeCasts_S1x1x1_S1x1) broadcasts_S1x1_S8192x1)) shapeCasts_S8192x1_S1x8192x1
      (ix3 0 r 0)
      = lin (fun i => h (ix2 r i)) (fun i => W (ix3 0 0 i)) (b (ix3 0 0 0)) := by
  refine (shapeCast_apply _ shapeCasts_S8192x1_S1x8192x1 (ix3 0 r 0) (ix2 r 0) ?_).trans ?_
  · rw [Shape.rowMajor_val_three, Shape.rowMajor_val_two]
    show r.val * 1 + 0 = (0 * 8192 + r.val) * 1 + 0
    omega
  refine (addf_apply _ _ _).trans ?_
  rw [matmulC_apply, bC_apply]
  unfold lin
  exact congrArg (· + b (ix3 0 0 0)) (Finset.sum_congr rfl fun k _ => congrArg (h (ix2 r k) * ·) (wC_apply W k 0))

/-! ## The two payloads -/

/-- The loop-carried value at `(r, o)`: the third layer's pre-activation, the first two layers applied to point `r`. -/
theorem pay2_apply (x0 : Vec Ideal S1x8192x3 .f32) (x1 : Vec Ideal S1x128x3 .f32) (x2 : Vec Ideal S1x1x128 .f32)
    (x3 : Vec Ideal S1x128x128 .f32) (x4 : Vec Ideal S1x1x128 .f32) (x5 : Vec Ideal S1x128x128 .f32)
    (x6 : Vec Ideal S1x1x128 .f32) (r : Fin 8192) (o : Fin 128) :
    k0_pay2 (F := Ideal) x0 x1 x2 x3 x4 x5 x6 (ix2 r o)
      = lin (fun o2 => act (lin (fun o1 => act (lin (fun i => x0 (ix3 0 r i)) (fun i => x1 (ix3 0 o1 i)) (x2 (ix3 0 0 o1))))
          (fun i => x3 (ix3 0 o2 i)) (x4 (ix3 0 0 o2)))) (fun i => x5 (ix3 0 o i)) (x6 (ix3 0 0 o)) := by
  unfold k0_pay2
  refine (affineB_apply _ x5 x6 r o).trans (lin_congr (fun o2 => ?_) _ _)
  refine (act_apply _ _).trans (congrArg act ?_)
  refine (affineB_apply _ x3 x4 r o2).trans (lin_congr (fun o1 => ?_) _ _)
  refine (act_apply _ _).trans (congrArg act ?_)
  exact affineA_apply x0 x1 x2 r o1

/-- The stored value at row `r`, from the loop-carried value: two more sine layers' worth and the read-out. -/
theorem pay1_apply (p : FVec Ideal S8192x128 .f32) (x7 : Vec Ideal S1x128x128 .f32) (x8 : Vec Ideal S1x1x128 .f32)
    (x9 : Vec Ideal S1x1x128 .f32) (x10 : Vec Ideal S1x1x1 .f32) (r : Fin 8192) :
    k0_pay1 (F := Ideal) p x7 x8 x9 x10 (ix3 0 r 0)
      = lin (fun o4 => act (lin (fun o3 => act (p (ix2 r o3))) (fun i => x7 (ix3 0 o4 i)) (x8 (ix3 0 0 o4))))
          (fun i => x9 (ix3 0 0 i)) (x10 (ix3 0 0 0)) := by
  unfold k0_pay1
  refine (affineC_apply _ x9 x10 r).trans (lin_congr (fun o4 => ?_) _ _)
  refine (act_apply _ _).trans (congrArg act ?_)
  refine (affineB_apply _ x7 x8 r o4).trans (lin_congr (fun o3 => ?_) _ _)
  exact act_apply _ _

/-- The stored value at row `r` of the tile is the network at point `r` of the loaded block. -/
theorem pay_apply (x0 : Vec Ideal S1x8192x3 .f32) (x1 : Vec Ideal S1x128x3 .f32) (x2 : Vec Ideal S1x1x128 .f32)
    (x3 : Vec Ideal S1x128x128 .f32) (x4 : Vec Ideal S1x1x128 .f32) (x5 : Vec Ideal S1x128x128 .f32)
    (x6 : Vec Ideal S1x1x128 .f32) (x7 : Vec Ideal S1x128x128 .f32) (x8 : Vec Ideal S1x1x128 .f32)
    (x9 : Vec Ideal S1x1x128 .f32) (x10 : Vec Ideal S1x1x1 .f32) (r : Fin 8192) :
    k0_pay1 (F := Ideal) (k0_pay2 (F := Ideal) x0 x1 x2 x3 x4 x5 x6) x7 x8 x9 x10 (ix3 0 r 0)
      = net (fun i => x0 (ix3 0 r i))
          (fun o i => x1 (ix3 0 o i)) (fun o => x2 (ix3 0 0 o))
          (fun o i => x3 (ix3 0 o i)) (fun o => x4 (ix3 0 0 o))
          (fun o i => x5 (ix3 0 o i)) (fun o => x6 (ix3 0 0 o))
          (fun o i => x7 (ix3 0 o i)) (fun o => x8 (ix3 0 0 o))
          (fun i => x9 (ix3 0 0 i)) (x10 (ix3 0 0 0)) := by
  refine (pay1_apply _ x7 x8 x9 x10 r).trans ?_
  unfold net
  refine lin_congr (fun o4 => congrArg act (lin_congr (fun o3 => congrArg act ?_) _ _)) _ _
  exact pay2_apply x0 x1 x2 x3 x4 x5 x6 r o3

end Cert.KernelIdeal.Net

end
-- ==== Proof.KHost.lean ====
/-
  The arrays the kernel's region finds its ten weight windows over, read at an index.

  Before the region the kernel's host code runs the same hypernetwork as the reference and cuts its
  output, the parameter array `P : [16, 50177]`, into the same ten column ranges. So each weight array
  is a slice (and reshape) of `P`, where `P` is the reference's own parameter stage evaluated at the
  kernel's arguments. Entry `(b, o, i)` of a weight matrix is `P` at row `b`, column
  `offset + width · o + i`; the kernel additionally gives each bias a unit middle axis, so entry
  `(b, 0, o)` of a bias array is `P` at row `b`, column `offset + o`.
-/
import proofs.«111952_j2740189135424_1_alg».proof.Proof.Gen.KernelIdeal.Frame
import proofs.«111952_j2740189135424_1_alg».proof.Proof.Gen.ReferenceIdeal.Read
import proofs.«111952_j2740189135424_1_alg».proof.Proof.Spec
import proofs.«111952_j2740189135424_1_alg».proof.Proof.RefG
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.SL.Sem
  Idealize.ShloMosaic.StableHlo Idealize.ShloMosaic.ValueIdx Cert.Siren

variable (m : (ℓ : Loc nD τ sig) → Buf (Elt Ideal) ℓ)

/-- The parameter array: the reference's parameter stage of the kernel's own hypernetwork arguments. -/
def P (c : Dev nD) : (⟨2, ![16, 50177]⟩ : Shape).Idx → EReal :=
  Cert.ReferenceIdeal.Read.val_main_v28 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The weight arrays as the region finds them

Each is what the host operations before the region leave in its buffer; unwinding them gives the
reference's stage of the same name (the two programs' host prefixes are the same operations). -/

section
set_option maxHeartbeats 4000000
set_option maxRecDepth 8192

theorem V_W0 (c : Dev nD) : V m c main_v30 = Cert.ReferenceIdeal.Read.val_main_v30 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps0 (fun b => m (c, b)) (Proc.devRef .tc main_v30) = _
  after_results_simp <;> rfl

theorem V_W1 (c : Dev nD) : V m c main_v33 = Cert.ReferenceIdeal.Read.val_main_v33 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps0 (fun b => m (c, b)) (Proc.devRef .tc main_v33) = _
  after_results_simp <;> rfl

theorem V_W2 (c : Dev nD) : V m c main_v36 = Cert.ReferenceIdeal.Read.val_main_v36 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps0 (fun b => m (c, b)) (Proc.devRef .tc main_v36) = _
  after_results_simp <;> rfl

theorem V_W3 (c : Dev nD) : V m c main_v39 = Cert.ReferenceIdeal.Read.val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps0 (fun b => m (c, b)) (Proc.devRef .tc main_v39) = _
  after_results_simp <;> rfl

theorem V_Wo (c : Dev nD) : V m c main_v42 = Cert.ReferenceIdeal.Read.val_main_v42 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps0 (fun b => m (c, b)) (Proc.devRef .tc main_v42) = _
  after_results_simp <;> rfl

theorem V_b0 (c : Dev nD) : V m c main_v44 = shapeCast S16x1x128 (Cert.ReferenceIdeal.Read.val_main_v31 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S16x128_S16x1x128 := by
  show StableHlo.after hostOps0 (fun b => m (c, b)) (Proc.devRef .tc main_v44) = _
  after_results_simp <;> rfl

theorem V_b1 (c : Dev nD) : V m c main_v45 = shapeCast S16x1x128 (Cert.ReferenceIdeal.Read.val_main_v34 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S16x128_S16x1x128 := by
  show StableHlo.after hostOps0 (fun b => m (c, b)) (Proc.devRef .tc main_v45) = _
  after_results_simp <;> rfl

theorem V_b2 (c : Dev nD) : V m c main_v46 = shapeCast S16x1x128 (Cert.ReferenceIdeal.Read.val_main_v37 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S16x128_S16x1x128 := by
  show StableHlo.after hostOps0 (fun b => m (c, b)) (Proc.devRef .tc main_v46) = _
  after_results_simp <;> rfl

theorem V_b3 (c : Dev nD) : V m c main_v47 = shapeCast S16x1x128 (Cert.ReferenceIdeal.Read.val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S16x128_S16x1x128 := by
  show StableHlo.after hostOps0 (fun b => m (c, b)) (Proc.devRef .tc main_v47) = _
  after_results_simp <;> rfl

theorem V_bo (c : Dev nD) : V m c main_v48 = shapeCast S16x1x1 (Cert.ReferenceIdeal.Read.val_main_v43 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S16x1_S16x1x1 := by
  show StableHlo.after hostOps0 (fun b => m (c, b)) (Proc.devRef .tc main_v48) = _
  after_results_simp <;> rfl

end

/-! ## Read at an index -/

/-- First-layer matrix: entry `(b, o, i)` is column `3 o + i` of row `b`. -/
theorem W0_at (c : Dev nD) (b : Fin 16) (o : Fin 128) (i : Fin 3) :
    V m c main_v30 (ix3 b o i) = P m c (ix2 b (colW0 o i)) := by
  rw [V_W0, Cert.ReferenceIdeal.Read.val_main_v30_apply, Cert.ReferenceIdeal.Read.val_main_v29_apply, Cert.Siren.Ref.idx_W0]; rfl

/-- Second-layer matrix: entry `(b, o, i)` is column `512 + 128 o + i`. -/
theorem W1_at (c : Dev nD) (b : Fin 16) (o i : Fin 128) :
    V m c main_v33 (ix3 b o i) = P m c (ix2 b (colW 512 (by omega) o i)) := by
  rw [V_W1, Cert.ReferenceIdeal.Read.val_main_v33_apply, Cert.ReferenceIdeal.Read.val_main_v32_apply, Cert.Siren.Ref.idx_W1]; rfl

/-- Third-layer matrix: column `17024 + 128 o + i`. -/
theorem W2_at (c : Dev nD) (b : Fin 16) (o i : Fin 128) :
    V m c main_v36 (ix3 b o i) = P m c (ix2 b (colW 17024 (by omega) o i)) := by
  rw [V_W2, Cert.ReferenceIdeal.Read.val_main_v36_apply, Cert.ReferenceIdeal.Read.val_main_v35_apply, Cert.Siren.Ref.idx_W2]; rfl

/-- Fourth-layer matrix: column `33536 + 128 o + i`. -/
theorem W3_at (c : Dev nD) (b : Fin 16) (o i : Fin 128) :
    V m c main_v39 (ix3 b o i) = P m c (ix2 b (colW 33536 (by omega) o i)) := by
  rw [V_W3, Cert.ReferenceIdeal.Read.val_main_v39_apply, Cert.ReferenceIdeal.Read.val_main_v38_apply, Cert.Siren.Ref.idx_W3]; rfl

/-- Read-out row: entry `(b, 0, i)` is column `50048 + i`. -/
theorem Wo_at (c : Dev nD) (b : Fin 16) (i : Fin 128) :
    V m c main_v42 (ix3 b 0 i) = P m c (ix2 b (colB 50048 (by omega) i)) := by
  rw [V_Wo, Cert.ReferenceIdeal.Read.val_main_v42_apply, Cert.ReferenceIdeal.Read.val_main_v41_apply, Cert.Siren.Ref.idx_Wo]; rfl

/-- A `[16, 128]` array given a unit middle axis, read at `(b, 0, o)`, is the array at `(b, o)`. -/
theorem unitMid_apply (x : S16x128.Idx → EReal) (b : Fin 16) (o : Fin 128) :
    shapeCast S16x1x128 x shapeCasts_S16x128_S16x1x128 (ix3 b 0 o) = x (ix2 b o) :=
  shapeCast_apply x shapeCasts_S16x128_S16x1x128 (ix3 b 0 o) (ix2 b o)
    (by rewrite [Shape.rowMajor_val_two, Shape.rowMajor_val_three]
        show b.val * 128 + o.val = (b.val * 1 + 0) * 128 + o.val; omega)

/-- First-layer bias: entry `(b, 0, o)` is column `384 + o`. -/
theorem b0_at (c : Dev nD) (b : Fin 16) (o : Fin 128) :
    V m c main_v44 (ix3 b 0 o) = P m c (ix2 b (colB 384 (by omega) o)) := by
  rw [V_b0, unitMid_apply, Cert.ReferenceIdeal.Read.val_main_v31_apply]
  exact congrArg (P m c) (funext fun a => Fin.ext (by match a with | ⟨0, _⟩ => rfl | ⟨1, _⟩ => rfl))

/-- Second-layer bias: column `16896 + o`. -/
theorem b1_at (c : Dev nD) (b : Fin 16) (o : Fin 128) :
    V m c main_v45 (ix3 b 0 o) = P m c (ix2 b (colB 16896 (by omega) o)) := by
  rw [V_b1, unitMid_apply, Cert.ReferenceIdeal.Read.val_main_v34_apply]
  exact congrArg (P m c) (funext fun a => Fin.ext (by match a with | ⟨0, _⟩ => rfl | ⟨1, _⟩ => rfl))

/-- Third-layer bias: column `33408 + o`. -/
theorem b2_at (c : Dev nD) (b : Fin 16) (o : Fin 128) :
    V m c main_v46 (ix3 b 0 o) = P m c (ix2 b (colB 33408 (by omega) o)) := by
  rw [V_b2, unitMid_apply, Cert.ReferenceIdeal.Read.val_main_v37_apply]
  exact congrArg (P m c) (funext fun a => Fin.ext (by match a with | ⟨0, _⟩ => rfl | ⟨1, _⟩ => rfl))

/-- Fourth-layer bias: column `49920 + o`. -/
theorem b3_at (c : Dev nD) (b : Fin 16) (o : Fin 128) :
    V m c main_v47 (ix3 b 0 o) = P m c (ix2 b (colB 49920 (by omega) o)) := by
  rw [V_b3, unitMid_apply, Cert.ReferenceIdeal.Read.val_main_v40_apply]
  exact congrArg (P m c) (funext fun a => Fin.ext (by match a with | ⟨0, _⟩ => rfl | ⟨1, _⟩ => rfl))

/-- Read-out bias: entry `(b, 0, 0)` is the last column. -/
theorem bo_at (c : Dev nD) (b : Fin 16) :
    V m c main_v48 (ix3 b 0 0) = P m c (ix2 b colBo) := by
  rw [V_bo]
  refine (shapeCast_apply _ shapeCasts_S16x1_S16x1x1 (ix3 b 0 0) (ix2 b 0)
    (by rewrite [Shape.rowMajor_val_two, Shape.rowMajor_val_three]
        show b.val * 1 + 0 = (b.val * 1 + 0) * 1 + 0; omega)).trans ?_
  rw [Cert.ReferenceIdeal.Read.val_main_v43_apply]
  exact congrArg (P m c) (funext fun a => Fin.ext (by match a with | ⟨0, _⟩ => rfl | ⟨1, _⟩ => rfl))

end Cert.KernelIdeal.Host

end
-- ==== Proof.KArr.lean ====
/-
  The kernel's output array, and the result after the host's final reshape, as one function of the
  arguments.

  The grid has 16 × 4 points: point `t` handles sample `b = t / 4` and the `q = t % 4`-th tile of 8192
  query points. Its input blocks are rows `[8192 q, 8192 q + 8192)` of sample `b`'s points and sample
  `b`'s slice of each weight array; what it writes back is, row by row, the network of those weights at
  that row's point. So the block written at `t` is block `t` of the single array `G3 xt P`; the 64 blocks
  tile `[16, 32768, 1]`, hence the array after the run IS `G3 xt P`, and the reshape after the region
  turns it into `out xt P`.
-/
import proofs.«111952_j2740189135424_1_alg».proof.Proof.Gen.KernelIdeal.Frame
import proofs.«111952_j2740189135424_1_alg».proof.Proof.Spec
import proofs.«111952_j2740189135424_1_alg».proof.Proof.KPay
import proofs.«111952_j2740189135424_1_alg».proof.Proof.KHost
import Idealize.ShloMosaic.Lib.StableHlo.Run
import Idealize.ShloMosaic.Lib.Pipeline.Value
import Idealize.ShloMosaic.Lib.ValueIdx

set_option maxRecDepth 16384

noncomputable section

namespace Cert.KernelIdeal.Arr

open Cert.KernelIdeal Cert.KernelIdeal.Gen Idealize.ShloMosaic Idealize.ShloMosaic.TcCoe Idealize.SL.Sem
  Idealize.ShloMosaic.StableHlo Idealize.ShloMosaic.ValueIdx Cert.Siren
open Idealize.ShloMosaic.Pipeline (Dat Cfg Window)

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps, decided over the grid -/

/-- The point array moves with the output (same sample, same tile); every weight window sits at the
    output's sample and nowhere else; the output's block indices stay in range. -/
theorem idx_facts : ∀ t : Fin cfg0.N,
    (win0_0.index t (0 : Fin 3) = win0_11.index t (0 : Fin 3) ∧ win0_0.index t (1 : Fin 3) = win0_11.index t (1 : Fin 3) ∧ win0_0.index t (2 : Fin 3) = 0)
    ∧ (win0_1.index t (0 : Fin 3) = win0_11.index t (0 : Fin 3) ∧ win0_1.index t (1 : Fin 3) = 0 ∧ win0_1.index t (2 : Fin 3) = 0)
    ∧ (win0_2.index t (0 : Fin 3) = win0_11.index t (0 : Fin 3) ∧ win0_2.index t (1 : Fin 3) = 0 ∧ win0_2.index t (2 : Fin 3) = 0)
    ∧ (win0_3.index t (0 : Fin 3) = win0_11.index t (0 : Fin 3) ∧ win0_3.index t (1 : Fin 3) = 0 ∧ win0_3.index t (2 : Fin 3) = 0)
    ∧ (win0_4.index t (0 : Fin 3) = win0_11.index t (0 : Fin 3) ∧ win0_4.index t (1 : Fin 3) = 0 ∧ win0_4.index t (2 : Fin 3) = 0)
    ∧ (win0_5.index t (0 : Fin 3) = win0_11.index t (0 : Fin 3) ∧ win0_5.index t (1 : Fin 3) = 0 ∧ win0_5.index t (2 : Fin 3) = 0)
    ∧ (win0_6.index t (0 : Fin 3) = win0_11.index t (0 : Fin 3) ∧ win0_6.index t (1 : Fin 3) = 0 ∧ win0_6.index t (2 : Fin 3) = 0)
    ∧ (win0_7.index t (0 : Fin 3) = win0_11.index t (0 : Fin 3) ∧ win0_7.index t (1 : Fin 3) = 0 ∧ win0_7.index t (2 : Fin 3) = 0)
    ∧ (win0_8.index t (0 : Fin 3) = win0_11.index t (0 : Fin 3) ∧ win0_8.index t (1 : Fin 3) = 0 ∧ win0_8.index t (2 : Fin 3) = 0)
    ∧ (win0_9.index t (0 : Fin 3) = win0_11.index t (0 : Fin 3) ∧ win0_9.index t (1 : Fin 3) = 0 ∧ win0_9.index t (2 : Fin 3) = 0)
    ∧ (win0_10.index t (0 : Fin 3) = win0_11.index t (0 : Fin 3) ∧ win0_10.index t (1 : Fin 3) = 0 ∧ win0_10.index t (2 : Fin 3) = 0)
    ∧ win0_11.index t (0 : Fin 3) < 16 ∧ win0_11.index t (1 : Fin 3) < 4 ∧ win0_11.index t (2 : Fin 3) = 0 :=
  (by decide +kernel : ∀ t : Fin grid0.N, _)

/-- Every (sample, tile) pair is some point's output block. -/
theorem idx_onto : ∀ (q0 : Fin 16) (q1 : Fin 4), ∃ t : Fin cfg0.N, win0_11.index t = ![q0.val, q1.val, 0] :=
  (by decide +kernel : ∀ (q0 : Fin 16) (q1 : Fin 4), ∃ t : Fin grid0.N, win0_11.index t = ![q0.val, q1.val, 0])

/-- The sample point `t` works on. -/
def smp (t : Fin cfg0.N) : Fin 16 := ⟨win0_11.index t (0 : Fin 3), (idx_facts t).2.2.2.2.2.2.2.2.2.2.2.1⟩
/-- The query point that row `r` of point `t`'s tile is. -/
def pnt (t : Fin cfg0.N) (r : Fin 8192) : Fin 32768 :=
  ⟨win0_11.index t (1 : Fin 3) * 8192 + r.val, by
    have h := (idx_facts t).2.2.2.2.2.2.2.2.2.2.2.2.1; have hr := r.isLt; omega⟩

/-! ## The input blocks, read at an index -/

abbrev xb0 (c : Dev nD) (t : Fin cfg0.N) : Vec Ideal S1x8192x3 .f32 := iblk m c 0 t
abbrev xb1 (c : Dev nD) (t : Fin cfg0.N) : Vec Ideal S1x128x3 .f32 := iblk m c 1 t
abbrev xb2 (c : Dev nD) (t : Fin cfg0.N) : Vec Ideal S1x1x128 .f32 := iblk m c 2 t
abbrev xb3 (c : Dev nD) (t : Fin cfg0.N) : Vec Ideal S1x128x128 .f32 := iblk m c 3 t
abbrev xb4 (c : Dev nD) (t : Fin cfg0.N) : Vec Ideal S1x1x128 .f32 := iblk m c 4 t
abbrev xb5 (c : Dev nD) (t : Fin cfg0.N) : Vec Ideal S1x128x128 .f32 := iblk m c 5 t
abbrev xb6 (c : Dev nD) (t : Fin cfg0.N) : Vec Ideal S1x1x128 .f32 := iblk m c 6 t
abbrev xb7 (c : Dev nD) (t : Fin cfg0.N) : Vec Ideal S1x128x128 .f32 := iblk m c 7 t
abbrev xb8 (c : Dev nD) (t : Fin cfg0.N) : Vec Ideal S1x1x128 .f32 := iblk m c 8 t
abbrev xb9 (c : Dev nD) (t : Fin cfg0.N) : Vec Ideal S1x1x128 .f32 := iblk m c 9 t
abbrev xb10 (c : Dev nD) (t : Fin cfg0.N) : Vec Ideal S1x1x1 .f32 := iblk m c 10 t

/-- Row `r` of the point block is query point `pnt t r` of sample `smp t`. -/
theorem blk0 (c : Dev nD) (t : Fin cfg0.N) (z : Fin 1) (r : Fin 8192) (i : Fin 3) :
    xb0 m c t (ix3 z r i) = V m c main_arg1 (ix3 (smp t) (pnt t r) i) := by
  show V m c main_arg1 (((cfg0.win 0).blk t).view.emb (ix3 z r i)) = _
  refine congrArg (V m c main_arg1) (funext fun a => Fin.ext ?_)
  obtain ⟨⟨e0, e1, e2⟩, -⟩ := idx_facts t
  have hz := z.isLt
  match a with
  | ⟨0, _⟩ => show win0_0.index t (0 : Fin 3) * 1 + 1 * z.val = win0_11.index t (0 : Fin 3); omega
  | ⟨1, _⟩ => show win0_0.index t (1 : Fin 3) * 8192 + 1 * r.val = win0_11.index t (1 : Fin 3) * 8192 + r.val; omega
  | ⟨2, _⟩ => show win0_0.index t (2 : Fin 3) * 3 + 1 * i.val = i.val; omega

theorem blk1 (c : Dev nD) (t : Fin cfg0.N) (z : Fin 1) (o : Fin 128) (i : Fin 3) :
    xb1 m c t (ix3 z o i) = Host.P m c (ix2 (smp t) (colW0 o i)) := by
  show V m c main_v30 (((cfg0.win 1).blk t).view.emb (ix3 z o i)) = _
  have he : ((cfg0.win 1).blk t).view.emb (ix3 z o i) = ix3 (smp t) o i := funext fun a => Fin.ext (by
    obtain ⟨-, ⟨e0, e1, e2⟩, -⟩ := idx_facts t
    have hz := z.isLt
    match a with
    | ⟨0, _⟩ => show win0_1.index t (0 : Fin 3) * 1 + 1 * z.val = win0_11.index t (0 : Fin 3); omega
    | ⟨1, _⟩ => show win0_1.index t (1 : Fin 3) * 128 + 1 * o.val = o.val; omega
    | ⟨2, _⟩ => show win0_1.index t (2 : Fin 3) * 3 + 1 * i.val = i.val; omega)
  rw [he]; exact Host.W0_at m c (smp t) o i

theorem blk2 (c : Dev nD) (t : Fin cfg0.N) (z z' : Fin 1) (o : Fin 128) :
    xb2 m c t (ix3 z z' o) = Host.P m c (ix2 (smp t) (colB 384 (by omega) o)) := by
  show V m c main_v44 (((cfg0.win 2).blk t).view.emb (ix3 z z' o)) = _
  have he : ((cfg0.win 2).blk t).view.emb (ix3 z z' o) = ix3 (smp t) 0 o := funext fun a => Fin.ext (by
    obtain ⟨-, -, ⟨e0, e1, e2⟩, -⟩ := idx_facts t
    have hz := z.isLt; have hz' := z'.isLt
    match a with
    | ⟨0, _⟩ => show win0_2.index t (0 : Fin 3) * 1 + 1 * z.val = win0_11.index t (0 : Fin 3); omega
    | ⟨1, _⟩ => show win0_2.index t (1 : Fin 3) * 1 + 1 * z'.val = 0; omega
    | ⟨2, _⟩ => show win0_2.index t (2 : Fin 3) * 128 + 1 * o.val = o.val; omega)
  rw [he]; exact Host.b0_at m c (smp t) o

theorem blk3 (c : Dev nD) (t : Fin cfg0.N) (z : Fin 1) (o i : Fin 128) :
    xb3 m c t (ix3 z o i) = Host.P m c (ix2 (smp t) (colW 512 (by omega) o i)) := by
  show V m c main_v33 (((cfg0.win 3).blk t).view.emb (ix3 z o i)) = _
  have he : ((cfg0.win 3).blk t).view.emb (ix3 z o i) = ix3 (smp t) o i := funext fun a => Fin.ext (by
    obtain ⟨-, -, -, ⟨e0, e1, e2⟩, -⟩ := idx_facts t
    have hz := z.isLt
    match a with
    | ⟨0, _⟩ => show win0_3.index t (0 : Fin 3) * 1 + 1 * z.val = win0_11.index t (0 : Fin 3); omega
    | ⟨1, _⟩ => show win0_3.index t (1 : Fin 3) * 128 + 1 * o.val = o.val; omega
    | ⟨2, _⟩ => show win0_3.index t (2 : Fin 3) * 128 + 1 * i.val = i.val; omega)
  rw [he]; exact Host.W1_at m c (smp t) o i

theorem blk4 (c : Dev nD) (t : Fin cfg0.N) (z z' : Fin 1) (o : Fin 128) :
    xb4 m c t (ix3 z z' o) = Host.P m c (ix2 (smp t) (colB 16896 (by omega) o)) := by
  show V m c main_v45 (((cfg0.win 4).blk t).view.emb (ix3 z z' o)) = _
  have he : ((cfg0.win 4).blk t).view.emb (ix3 z z' o) = ix3 (smp t) 0 o := funext fun a => Fin.ext (by
    obtain ⟨-, -, -, -, ⟨e0, e1, e2⟩, -⟩ := idx_facts t
    have hz := z.isLt; have hz' := z'.isLt
    match a with
    | ⟨0, _⟩ => show win0_4.index t (0 : Fin 3) * 1 + 1 * z.val = win0_11.index t (0 : Fin 3); omega
    | ⟨1, _⟩ => show win0_4.index t (1 : Fin 3) * 1 + 1 * z'.val = 0; omega
    | ⟨2, _⟩ => show win0_4.index t (2 : Fin 3) * 128 + 1 * o.val = o.val; omega)
  rw [he]; exact Host.b1_at m c (smp t) o

theorem blk5 (c : Dev nD) (t : Fin cfg0.N) (z : Fin 1) (o i : Fin 128) :
    xb5 m c t (ix3 z o i) = Host.P m c (ix2 (smp t) (colW 17024 (by omega) o i)) := by
  show V m c main_v36 (((cfg0.win 5).blk t).view.emb (ix3 z o i)) = _
  have he : ((cfg0.win 5).blk t).view.emb (ix3 z o i) = ix3 (smp t) o i := funext fun a => Fin.ext (by
    obtain ⟨-, -, -, -, -, ⟨e0, e1, e2⟩, -⟩ := idx_facts t
    have hz := z.isLt
    match a with
    | ⟨0, _⟩ => show win0_5.index t (0 : Fin 3) * 1 + 1 * z.val = win0_11.index t (0 : Fin 3); omega
    | ⟨1, _⟩ => show win0_5.index t (1 : Fin 3) * 128 + 1 * o.val = o.val; omega
    | ⟨2, _⟩ => show win0_5.index t (2 : Fin 3) * 128 + 1 * i.val = i.val; omega)
  rw [he]; exact Host.W2_at m c (smp t) o i

theorem blk6 (c : Dev nD) (t : Fin cfg0.N) (z z' : Fin 1) (o : Fin 128) :
    xb6 m c t (ix3 z z' o) = Host.P m c (ix2 (smp t) (colB 33408 (by omega) o)) := by
  show V m c main_v46 (((cfg0.win 6).blk t).view.emb (ix3 z z' o)) = _
  have he : ((cfg0.win 6).blk t).view.emb (ix3 z z' o) = ix3 (smp t) 0 o := funext fun a => Fin.ext (by
    obtain ⟨-, -, -, -, -, -, ⟨e0, e1, e2⟩, -⟩ := idx_facts t
    have hz := z.isLt; have hz' := z'.isLt
    match a with
    | ⟨0, _⟩ => show win0_6.index t (0 : Fin 3) * 1 + 1 * z.val = win0_11.index t (0 : Fin 3); omega
    | ⟨1, _⟩ => show win0_6.index t (1 : Fin 3) * 1 + 1 * z'.val = 0; omega
    | ⟨2, _⟩ => show win0_6.index t (2 : Fin 3) * 128 + 1 * o.val = o.val; omega)
  rw [he]; exact Host.b2_at m c (smp t) o

theorem blk7 (c : Dev nD) (t : Fin cfg0.N) (z : Fin 1) (o i : Fin 128) :
    xb7 m c t (ix3 z o i) = Host.P m c (ix2 (smp t) (colW 33536 (by omega) o i)) := by
  show V m c main_v39 (((cfg0.win 7).blk t).view.emb (ix3 z o i)) = _
  have he : ((cfg0.win 7).blk t).view.emb (ix3 z o i) = ix3 (smp t) o i := funext fun a => Fin.ext (by
    obtain ⟨-, -, -, -, -, -, -, ⟨e0, e1, e2⟩, -⟩ := idx_facts t
    have hz := z.isLt
    match a with
    | ⟨0, _⟩ => show win0_7.index t (0 : Fin 3) * 1 + 1 * z.val = win0_11.index t (0 : Fin 3); omega
    | ⟨1, _⟩ => show win0_7.index t (1 : Fin 3) * 128 + 1 * o.val = o.val; omega
    | ⟨2, _⟩ => show win0_7.index t (2 : Fin 3) * 128 + 1 * i.val = i.val; omega)
  rw [he]; exact Host.W3_at m c (smp t) o i

theorem blk8 (c : Dev nD) (t : Fin cfg0.N) (z z' : Fin 1) (o : Fin 128) :
    xb8 m c t (ix3 z z' o) = Host.P m c (ix2 (smp t) (colB 49920 (by omega) o)) := by
  show V m c main_v47 (((cfg0.win 8).blk t).view.emb (ix3 z z' o)) = _
  have he : ((cfg0.win 8).blk t).view.emb (ix3 z z' o) = ix3 (smp t) 0 o := funext fun a => Fin.ext (by
    obtain ⟨-, -, -, -, -, -, -, -, ⟨e0, e1, e2⟩, -⟩ := idx_facts t
    have hz := z.isLt; have hz' := z'.isLt
    match a with
    | ⟨0, _⟩ => show win0_8.index t (0 : Fin 3) * 1 + 1 * z.val = win0_11.index t (0 : Fin 3); omega
    | ⟨1, _⟩ => show win0_8.index t (1 : Fin 3) * 1 + 1 * z'.val = 0; omega
    | ⟨2, _⟩ => show win0_8.index t (2 : Fin 3) * 128 + 1 * o.val = o.val; omega)
  rw [he]; exact Host.b3_at m c (smp t) o

theorem blk9 (c : Dev nD) (t : Fin cfg0.N) (z z' : Fin 1) (i : Fin 128) :
    xb9 m c t (ix3 z z' i) = Host.P m c (ix2 (smp t) (colB 50048 (by omega) i)) := by
  show V m c main_v42 (((cfg0.win 9).blk t).view.emb (ix3 z z' i)) = _
  have he : ((cfg0.win 9).blk t).view.emb (ix3 z z' i) = ix3 (smp t) 0 i := funext fun a => Fin.ext (by
    obtain ⟨-, -, -, -, -, -, -, -, -, ⟨e0, e1, e2⟩, -⟩ := idx_facts t
    have hz := z.isLt; have hz' := z'.isLt
    match a with
    | ⟨0, _⟩ => show win0_9.index t (0 : Fin 3) * 1 + 1 * z.val = win0_11.index t (0 : Fin 3); omega
    | ⟨1, _⟩ => show win0_9.index t (1 : Fin 3) * 1 + 1 * z'.val = 0; omega
    | ⟨2, _⟩ => show win0_9.index t (2 : Fin 3) * 128 + 1 * i.val = i.val; omega)
  rw [he]; exact Host.Wo_at m c (smp t) i

theorem blk10 (c : Dev nD) (t : Fin cfg0.N) (z z' z'' : Fin 1) :
    xb10 m c t (ix3 z z' z'') = Host.P m c (ix2 (smp t) colBo) := by
  show V m c main_v48 (((cfg0.win 10).blk t).view.emb (ix3 z z' z'')) = _
  have he : ((cfg0.win 10).blk t).view.emb (ix3 z z' z'') = ix3 (smp t) 0 0 := funext fun a => Fin.ext (by
    obtain ⟨-, -, -, -, -, -, -, -, -, -, ⟨e0, e1, e2⟩, -⟩ := idx_facts t
    have hz := z.isLt; have hz' := z'.isLt; have hz'' := z''.isLt
    match a with
    | ⟨0, _⟩ => show win0_10.index t (0 : Fin 3) * 1 + 1 * z.val = win0_11.index t (0 : Fin 3); omega
    | ⟨1, _⟩ => show win0_10.index t (1 : Fin 3) * 1 + 1 * z'.val = 0; omega
    | ⟨2, _⟩ => show win0_10.index t (2 : Fin 3) * 1 + 1 * z''.val = 0; omega)
  rw [he]; exact Host.bo_at m c (smp t)

/-! ## What a point writes back -/

/-- Row `r` of what point `t` stores is the network of sample `smp t` at query point `pnt t r`. -/
theorem stored_at (c : Dev nD) (t : Fin cfg0.N) (r : Fin 8192) :
    k0_pay1 (F := Ideal) (k0_pay2 (F := Ideal) (xb0 m c t) (xb1 m c t) (xb2 m c t) (xb3 m c t) (xb4 m c t) (xb5 m c t) (xb6 m c t))
        (xb7 m c t) (xb8 m c t) (xb9 m c t) (xb10 m c t) (ix3 0 r 0)
      = G (V m c main_arg1) (Host.P m c) (smp t) (pnt t r) := by
  refine (Net.pay_apply (xb0 m c t) (xb1 m c t) (xb2 m c t) (xb3 m c t) (xb4 m c t) (xb5 m c t) (xb6 m c t)
    (xb7 m c t) (xb8 m c t) (xb9 m c t) (xb10 m c t) r).trans ?_
  unfold G
  simp only [blk0 m c t, blk1 m c t, blk2 m c t, blk3 m c t, blk4 m c t, blk5 m c t, blk6 m c t, blk7 m c t,
    blk8 m c t, blk9 m c t, blk10 m c t]

/-- The same at any index of the tile: its outer coordinates are `0`, so it is a row. -/
theorem stored_row (c : Dev nD) (t : Fin cfg0.N) (j : S1x8192x1.Idx) :
    k0_pay1 (F := Ideal) (k0_pay2 (F := Ideal) (xb0 m c t) (xb1 m c t) (xb2 m c t) (xb3 m c t) (xb4 m c t) (xb5 m c t) (xb6 m c t))
        (xb7 m c t) (xb8 m c t) (xb9 m c t) (xb10 m c t) j
      = G (V m c main_arg1) (Host.P m c) (smp t) (pnt t (j 1)) := by
  have hj0 : (j 0).val < 1 := (j 0).isLt
  have hj2 : (j 2).val < 1 := (j 2).isLt
  have hj : j = ix3 0 (j 1) 0 := funext fun a => by
    match a with
    | ⟨0, _⟩ => exact Fin.ext (by show (j 0).val = 0; omega)
    | ⟨1, _⟩ => rfl
    | ⟨2, _⟩ => exact Fin.ext (by show (j 2).val = 0; omega)
  exact (congrArg (k0_pay1 (F := Ideal) (k0_pay2 (F := Ideal) (xb0 m c t) (xb1 m c t) (xb2 m c t) (xb3 m c t) (xb4 m c t) (xb5 m c t) (xb6 m c t))
        (xb7 m c t) (xb8 m c t) (xb9 m c t) (xb10 m c t)) hj).trans (stored_at m c t (j 1))

/-- WHAT POINT `t` WRITES BACK is block `t` of `G3` of the points and the parameter array. -/
theorem flushed_eq (c : Dev nD) (t : Fin cfg0.N) :
    (dats m 0 c).flushed 11 t = ((cfg0.win 11).blk t).view.read (Elt Ideal) (G3 (V m c main_arg1) (Host.P m c)) := by
  show (cfg0.win 11).cut (grid0.coords t) ((dats m 0 c).after 11 t) = _
  rw [after0_11]
  unfold out0_11
  rw [View.canon_unit_zero hz]
  simp only [View.ld_unit_zero (S := S1x8192x3) hz, View.ld_unit_zero (S := S1x128x3) hz, View.ld_unit_zero (S := S1x1x128) hz,
    View.ld_unit_zero (S := S1x128x128) hz, View.ld_unit_zero (S := S1x1x1) hz]
  funext j
  have hj0 : (j 0).val < 1 := (j 0).isLt
  refine (stored_row m c t j).trans ?_
  show G (V m c main_arg1) (Host.P m c) (smp t) (pnt t (j 1))
      = G (V m c main_arg1) (Host.P m c) ((((cfg0.win 11).blk t).view.emb j) 0) ((((cfg0.win 11).blk t).view.emb j) 1)
  congr 1
  · exact Fin.ext (by show win0_11.index t (0 : Fin 3) = win0_11.index t (0 : Fin 3) * 1 + 1 * (j 0).val; omega)
  · exact Fin.ext (by show win0_11.index t (1 : Fin 3) * 8192 + (j 1).val = win0_11.index t (1 : Fin 3) * 8192 + 1 * (j 1).val; omega)

/-! ## The cover, and the array after the run -/

/-- An index of the output array is in point `t`'s block iff each coordinate is in the block's range. -/
theorem mem_blk (t : Fin cfg0.N) (i : S16x32768x1.Idx) :
    i ∈ ((cfg0.win 11).blk t).view.set ↔ ∀ a : Fin 3, win0_11.index t a * S1x8192x1.size a ≤ (i a).val ∧ (i a).val < win0_11.index t a * S1x8192x1.size a + S1x8192x1.size a := by
  show i ∈ ((View.whole main_v49).slice (win0_11.rect t)).set ↔ _
  rw [View.set_slice_whole, Rect.mem_set_unit]
  exact Iff.rfl

/-- The 64 blocks tile the output array: index `(b, n, 0)` is in the block of sample `b`, tile `n / 8192`. -/
theorem cover (i : S16x32768x1.Idx) :
    ∃ t : Fin cfg0.N, (cfg0.win 11).flush t = true ∧ i ∈ ((cfg0.win 11).blk t).view.set := by
  have hi0 : (i 0).val < 16 := (i 0).isLt
  have hi1 : (i 1).val < 32768 := (i 1).isLt
  have hi2 : (i 2).val < 1 := (i 2).isLt
  obtain ⟨t, ht⟩ := idx_onto ⟨(i 0).val, hi0⟩ ⟨(i 1).val / 8192, by omega⟩
  have q0 : win0_11.index t (0 : Fin 3) = (i 0).val := congrFun ht 0
  have q1 : win0_11.index t (1 : Fin 3) = (i 1).val / 8192 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 8192 ≤ (i 1).val ∧ (i 1).val < win0_11.index t (1 : Fin 3) * 8192 + 8192; omega
  | ⟨2, _⟩ => show win0_11.index t (2 : Fin 3) * 1 ≤ (i 2).val ∧ (i 2).val < win0_11.index t (2 : Fin 3) * 1 + 1; omega

/-- THE OUTPUT ARRAY after the run. -/
theorem final (c : Dev nD) : (dats m 0 c).arrAt 11 cfg0.N = G3 (V m c main_arg1) (Host.P m c) :=
  (dats m 0 c).arrAt_eq_of_cover 11 (G3 (V m c main_arg1) (Host.P m c)) (fun t _ => flushed_eq m c t) cover

/-! ## After the region: the reshape to `[524288, 1]` -/

/-- Flattening `[16, 32768, 1]` row-major: row `q` is `(q / 32768, q % 32768, 0)`. -/
theorem flat_apply (x : S16x32768x1.Idx → EReal) (i : S524288x1.Idx) :
    shapeCast S524288x1 x shapeCasts_S16x32768x1_S524288x1 i
      = x (ix3 ⟨(i 0).val / 32768, by have h : (i 0).val < 524288 := (i 0).isLt; omega⟩ ⟨(i 0).val % 32768, Nat.mod_lt _ (by decide)⟩ 0) :=
  shapeCast_apply x shapeCasts_S16x32768x1_S524288x1 i _
    (by rewrite [Shape.rowMajor_val_three, Shape.rowMajor_val_two]
        have h0 : (i 0).val < 524288 := (i 0).isLt; have h1 : (i 1).val < 1 := (i 1).isLt
        show ((i 0).val / 32768 * 32768 + (i 0).val % 32768) * 1 + 0 = (i 0).val * 1 + (i 1).val; omega)

/-- THE RESULT after the host's last line. -/
theorem result (c : Dev nD) :
    Pipeline.afterTail₀ cfgs (dats m) 0 (V0 m) [hostOps1] c main_v50 = out (V m c main_arg1) (Host.P m c) := by
  unfold Pipeline.afterTail₀
  show StableHlo.after hostOps1 _ (Proc.devRef .tc main_v50) = _
  after_results
  rw [show Pipeline.withArrays (cfgs 0).spec c (V0 m c) (fun w => (dats m 0 c).arrAt w (cfgs 0).N) (Proc.devRef .tc main_v49)
      = G3 (V m c main_arg1) (Host.P m c) from (Pipeline.withArrays_arr spec0 launch0.win.arr_inj c _ _ 11).trans (final m c)]
  funext i
  exact (flat_apply (G3 (V m c main_arg1) (Host.P m c)) i).trans rfl

/-! ## The kernel's run, with its result named -/

theorem run : θ_run defs (onTc (τ := τ) (main (F := Ideal))) ⟨m, fun _ => 0, ρ⟩ fun r => ∀ c : Dev nD,
      r.2.mem ((c.tc : Thread nD τ).loc main_v50) = out (m ((c.tc : Thread nD τ).loc main_arg1)) (Host.P m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(((h c).2 main_v50 (Pipeline.mem_restRefs_of main_v50 (by decide) (by decide))).trans (result m c)).trans (by rw [V_main_arg1]),
      (((h c).2 main_arg0 (Pipeline.mem_restRefs_of main_arg0 (by decide) (by decide))).trans (W_main_arg0 m (dats m) c)),
      ((h c).1 0).trans ((((dats m) 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Arr

end
-- ==== Proof.lean ====
/-
  Kernel against reference for a hypernetwork-driven SIREN: both programs first run the same small
  hypernetwork on the host, which turns each of 16 samples' codes into a row of 50177 parameters; those
  parameters are the weights of a per-sample network (three inputs, four layers `h ↦ sin (30 · (W h + b))`
  of width 128, an affine read-out) that is then evaluated at 32768 query points per sample.

  The reference evaluates it with batched contractions over whole arrays. The kernel evaluates it in a
  grid of 16 × 4 points, one sample and one tile of 8192 query points each, as plain matrix products
  against the transposed weight blocks. Over the extended reals both are the same finite sums of the
  same products, in the same order of factors, followed by the same `sin`: only the indexing differs
  (which tile a row is in; where in a sample's parameter row a weight sits), and no law that needs
  finiteness is used. `Siren.out xt P` (Proof/Spec.lean) is that common function of the query points
  `xt` and the parameter array `P`; Proof/RefG.lean shows it is the reference's result, Proof/KPay.lean
  that the kernel body's stored value is the network at each row, Proof/KHost.lean where each weight
  sits in `P`, and Proof/KArr.lean that the 64 written blocks tile the output with `Siren.out`. The
  parameter array itself is never opened: both programs build it by the same host operations, so it
  is one term of the arguments on both sides.

  The kernel's two frames are the generated ones; the reference's is its generated run with the
  result dropped; the idealization rewrote nothing, so there is nothing to preserve.
-/
import proofs.«111952_j2740189135424_1_alg».proof.Defs
import proofs.«111952_j2740189135424_1_alg».proof.Proof.Gen.Kernel
import proofs.«111952_j2740189135424_1_alg».proof.Proof.Gen.Kernel.Skeleton
import proofs.«111952_j2740189135424_1_alg».proof.Proof.Gen.Kernel.Launch
import proofs.«111952_j2740189135424_1_alg».proof.Proof.Gen.Kernel.Points
import proofs.«111952_j2740189135424_1_alg».proof.Proof.Gen.Kernel.Frame
import proofs.«111952_j2740189135424_1_alg».proof.Proof.Gen.KernelIdeal
import proofs.«111952_j2740189135424_1_alg».proof.Proof.Gen.KernelIdeal.Skeleton
import proofs.«111952_j2740189135424_1_alg».proof.Proof.Gen.KernelIdeal.Launch
import proofs.«111952_j2740189135424_1_alg».proof.Proof.Gen.KernelIdeal.Points
import proofs.«111952_j2740189135424_1_alg».proof.Proof.Gen.KernelIdeal.Frame
import proofs.«111952_j2740189135424_1_alg».proof.Proof.Gen.ReferenceIdeal
import proofs.«111952_j2740189135424_1_alg».proof.Proof.Gen.Pre_finite_inputs
import proofs.«111952_j2740189135424_1_alg».proof.Proof.Gen.ReferenceIdeal.Run
import proofs.«111952_j2740189135424_1_alg».proof.Proof.Gen.ReferenceIdeal.Read
import proofs.«111952_j2740189135424_1_alg».proof.Proof.Spec
import proofs.«111952_j2740189135424_1_alg».proof.Proof.RefG
import proofs.«111952_j2740189135424_1_alg».proof.Proof.KPay
import proofs.«111952_j2740189135424_1_alg».proof.Proof.KHost
import proofs.«111952_j2740189135424_1_alg».proof.Proof.KArr
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at `Siren.out` of the query points and of the parameter array the (shared) hypernetwork
    builds from the other arguments; the arguments agree, so the results are equal. -/
theorem algebraic : Cert.algebraic_KernelIdeal_ReferenceIdeal := by
  intro m ρ m' ρ' _ hagree
  refine ⟨fun c => Cert.Siren.out (m ((c.tc : Thread Cert.KernelIdeal.nD Cert.KernelIdeal.τ).loc Cert.KernelIdeal.main_arg1)) (Cert.KernelIdeal.Host.P m c),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v76_eq, Cert.Siren.Ref.ref_out, h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
